-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_arg5 : FVec F S10 .f32) (main_v13 : IVec S_ 1) (main_v16 : IVec S256x10 1) : IVec S_ 1 :=
  let main_c_5 : IVec S_ 1 := constantI S_ 1 1#1
  let main_v17 : IVec S_ 1 := (fun x v => Host.reduce IntOp.andi x v reducesTo_S256x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_c_8 : IVec S_ 32 := constantI S_ 32 0#32
  let main_v24 : IVec S2x320000 32 := broadcastInDim S2x320000 ![] bcast_S_S2x320000 main_c_8
  let main_v25 : IVec S2x320000 1 := cmpi .sge main_arg1 main_v24
  let main_c_9 : IVec S_ 32 := constantI S_ 32 10000#32
  let main_v26 : IVec S2x320000 32 := broadcastInDim S2x320000 ![] bcast_S_S2x320000 main_c_9
  let main_v27 : IVec S2x320000 1 := cmpi .slt main_arg1 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x256 .f32) (main_arg1 : IVec S2x320000 32) (main_arg2 : FVec F S512x256 .f32) (main_arg3 : FVec F S256 .f32) (main_arg4 : FVec F S256x10 .f32) (main_arg5 : FVec F S10 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x10 .f32 := Host.absf main_arg4
  let main_cst_4 : FVec F S_ .f32 := constant S_ .f32 0x7F800000#32
  let main_v15 : FVec F S256x10 .f32 := broadcastInDim S256x10 ![] bcast_S_S256x10 main_cst_4
  let main_v16 : IVec S256x10 1 := cmpf .olt main_v14 main_v15
  fn_part1 (F := F) main_arg1 main_arg5 main_v13 main_v16
-- ==== Kernel.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S1250x256 : Shape := ⟨2, ![1250, 256]⟩
abbrev S1250x1x256 : Shape := ⟨3, ![1250, 1, 256]⟩
abbrev S1250x2x256 : Shape := ⟨3, ![1250, 2, 256]⟩
abbrev S640000x1 : Shape := ⟨2, ![640000, 1]⟩
abbrev S320000x10 : Shape := ⟨2, ![320000, 10]⟩
abbrev S512x1 : Shape := ⟨2, ![512, 1]⟩
abbrev S1x10000 : Shape := ⟨2, ![1, 10000]⟩
abbrev S512x10000 : Shape := ⟨2, ![512, 10000]⟩
abbrev S256x256 : Shape := ⟨2, ![256, 256]⟩
abbrev S1x256 : Shape := ⟨2, ![1, 256]⟩
abbrev S1x10 : Shape := ⟨2, ![1, 10]⟩
abbrev S256x1 : Shape := ⟨2, ![256, 1]⟩

abbrev nBuf : Space → Nat
  | .hbm => 20
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S1250x256, .i32⟩
  | .hbm, ⟨11, _⟩ => ⟨S1250x256, .i32⟩
  | .hbm, ⟨12, _⟩ => ⟨S1250x1x256, .i32⟩
  | .hbm, ⟨13, _⟩ => ⟨S1250x1x256, .i32⟩
  | .hbm, ⟨14, _⟩ => ⟨S1250x2x256, .i32⟩
  | .hbm, ⟨15, _⟩ => ⟨S640000x1, .i32⟩
  | .hbm, ⟨16, _⟩ => ⟨S10000x256, .bf16⟩
  | .hbm, ⟨17, _⟩ => ⟨S512x256, .bf16⟩
  | .hbm, ⟨18, _⟩ => ⟨S256x10, .bf16⟩
  | .hbm, ⟨19, _⟩ => ⟨S320000x10, .f32⟩
  | .local _ .vmem, ⟨0, _⟩ => ⟨S512x1, .i32⟩
  | .local _ .vmem, ⟨1, _⟩ => ⟨S512x1, .i32⟩
  | .local _ .vmem, ⟨2, _⟩ => ⟨S10000x256, .bf16⟩
  | .local _ .vmem, ⟨3, _⟩ => ⟨S512x256, .bf16⟩
  | .local _ .vmem, ⟨4, _⟩ => ⟨S256, .f32⟩
  | .local _ .vmem, ⟨5, _⟩ => ⟨S256x10, .bf16⟩
  | .local _ .vmem, ⟨6, _⟩ => ⟨S10, .f32⟩
  | .local _ .vmem, ⟨7, _⟩ => ⟨S256x10, .f32⟩
  | .local _ .vmem, ⟨8, _⟩ => ⟨S256x10, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S320000_S1250x256 : S320000.ShapeCasts S1250x256
  bcast_S1250x256_S1250x1x256_0_2 : S1250x256.BroadcastsInDim S1250x1x256 (![0, 2] : Fin 2 → Fin S1250x1x256.rank)
  concatenates_S1250x1x256_S1250x1x256_S1250x2x256_d1 : Shape.Concatenates [S1250x1x256, S1250x1x256] S1250x2x256 1
  shapeCasts_S1250x2x256_S640000x1 : S1250x2x256.ShapeCasts S640000x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x10000_d1_w32 : S1x10000.Iotas .tc 32 [1]
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  broadcasts_S512x1_S512x10000 : S512x1.Broadcasts S512x10000
  broadcasts_S1x10000_S512x10000 : S1x10000.Broadcasts S512x10000
  natLt_1_32 : 1 < 32
  slices_S512x256_o0_0_S256x256 : S512x256.Slices ![0, 0] S256x256
  slices_S512x256_o256_0_S256x256 : S512x256.Slices ![256, 0] S256x256
  inb_S512x256_S256x256_0_0 : ∀ a, (![0, 0] : Fin 2 → Nat) a + S256x256.size a ≤ S512x256.size a
  h_S256x256 : 0 < S256x256.numel
  shapeCasts_S256x256_S256x256 : S256x256.ShapeCasts S256x256
  inb_S512x256_S256x256_256_0 : ∀ a, (![256, 0] : Fin 2 → Nat) a + S256x256.size a ≤ S512x256.size a
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  dot_S512x10000_S10000x256_S512x256_1_0_0_1_n_n_wf : DotDims.WF S512x10000 S10000x256 S512x256 [1] [0] [0] [1] [] []
  dot_S256x256_S256x256_S256x256_1_0_0_1_n_n_wf : DotDims.WF S256x256 S256x256 S256x256 [1] [0] [0] [1] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S640000x1.size a
  hwx0_0 : ∀ i : grid0.Coords, EltTy.bits .i32 = 32 ∨ (Rect.block (s := S640000x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x10.size a ≤ S256x10.size a
  hwx0_4 : ∀ i : grid0.Coords, EltTy.bits .bf16 = 32 ∨ (Rect.block (s := S256x10) S256x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10.size a ≤ S10.size a
  hwx0_5 : ∀ i : grid0.Coords, EltTy.bits .f32 = 32 ∨ (Rect.block (s := S10) S10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x10.size a ≤ S320000x10.size a
  hwx0_6 : ∀ i : grid0.Coords, EltTy.bits .f32 = 32 ∨ (Rect.block (s := S320000x10) S256x10.size (cc0_transform_6 i) (hinb0_6 i)).WholeWords (EltTy.packing .f32)

variable [Facts₀]

def dot_S512x10000_S10000x256_S512x256_1_0_0_1_n_n : DotDims S512x10000 S10000x256 S512x256 where
  lhsContracting := [1]
  rhsContracting := [0]
  lhsNonContracting := [0]
  rhsNonContracting := [1]
  lhsBatch := []
  rhsBatch := []
  wf := dot_S512x10000_S10000x256_S512x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v9) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S256x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S512x256 : Shape := ⟨2, ![512, 256]⟩
abbrev S256 : Shape := ⟨1, ![256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x256 : Shape := ⟨2, ![1, 256]⟩
abbrev S320000x10 : Shape := ⟨2, ![320000, 10]⟩
abbrev S1x10 : Shape := ⟨2, ![1, 10]⟩

abbrev nBuf : Space → Nat
  | .hbm => 55
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x512, .f32⟩
  | .hbm, ⟨29, _⟩ => ⟨S320000x256, .f32⟩
  | .hbm, ⟨30, _⟩ => ⟨S1x256, .f32⟩
  | .hbm, ⟨31, _⟩ => ⟨S320000x256, .f32⟩
  | .hbm, ⟨32, _⟩ => ⟨S320000x256, .f32⟩
  | .hbm, ⟨33, _⟩ => ⟨S_, .f32⟩
  | .hbm, ⟨34, _⟩ => ⟨S320000x256, .f32⟩
  | .hbm, ⟨35, _⟩ => ⟨S320000x256, .f32⟩
  | .hbm, ⟨36, _⟩ => ⟨S320000x10, .f32⟩
  | .hbm, ⟨37, _⟩ => ⟨S1x10, .f32⟩
  | .hbm, ⟨38, _⟩ => ⟨S320000x10, .f32⟩
  | .hbm, ⟨39, _⟩ => ⟨S320000x10, .f32⟩
  | .hbm, ⟨40, _⟩ => ⟨S_, .f32⟩
  | .hbm, ⟨41, _⟩ => ⟨S320000, .f32⟩
  | .hbm, ⟨42, _⟩ => ⟨S_, .f32⟩
  | .hbm, ⟨43, _⟩ => ⟨S320000, .f32⟩
  | .hbm, ⟨44, _⟩ => ⟨S320000, .f32⟩
  | .hbm, ⟨45, _⟩ => ⟨S320000x1, .f32⟩
  | .hbm, ⟨46, _⟩ => ⟨S320000x10, .f32⟩
  | .hbm, ⟨47, _⟩ => ⟨S320000x10, .f32⟩
  | .hbm, ⟨48, _⟩ => ⟨S320000x10, .f32⟩
  | .hbm, ⟨49, _⟩ => ⟨S_, .f32⟩
  | .hbm, ⟨50, _⟩ => ⟨S320000, .f32⟩
  | .hbm, ⟨51, _⟩ => ⟨S320000x1, .f32⟩
  | .hbm, ⟨52, _⟩ => ⟨S320000x1, .f32⟩
  | .hbm, ⟨53, _⟩ => ⟨S320000x10, .f32⟩
  | .hbm, ⟨54, _⟩ => ⟨S320000x10, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_cst : Ref sig .tc := ⟨.hbm, 40, rfl⟩
abbrev main_call1_v0 : Ref sig .tc := ⟨.hbm, 41, rfl⟩
abbrev main_call1_cst_0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_cst_1 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_v28 : Ref sig .tc := ⟨.hbm, 54, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S10_S1x10_1 : S10.BroadcastsInDim S1x10 (![1] : Fin 1 → Fin S1x10.rank)
  bcast_S1x10_S320000x10_0_1 : S1x10.BroadcastsInDim S320000x10 (![0, 1] : Fin 2 → Fin S320000x10.rank)
  reducesTo_S320000x10_S320000_d1 : S320000x10.ReducesTo [1] S320000
  h_S_ : 0 < S_.numel
  bcast_S320000x1_S320000x10_0_1 : S320000x1.BroadcastsInDim S320000x10 (![0, 1] : Fin 2 → Fin S320000x10.rank)
  gather_S10000x256_S320000x1_S320000x256_1_0_n_n_0_1_1256_wf : GatherDims.WF S10000x256 S320000x1 S320000x256 [1] [0] [] [0] [] 1 ![1, 256]
  dot_S320000x512_S512x256_S320000x256_1_0_0_1_n_n_wf : DotDims.WF S320000x512 S512x256 S320000x256 [1] [0] [0] [1] [] []
  dot_S320000x256_S256x10_S320000x10_1_0_0_1_n_n_wf : DotDims.WF S320000x256 S256x10 S320000x10 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def dot_S320000x256_S256x10_S320000x10_1_0_0_1_n_n : DotDims S320000x256 S256x10 S320000x10 where
  lhsContracting := [1]
  rhsContracting := [0]
  lhsNonContracting := [0]
  rhsNonContracting := [1]
  lhsBatch := []
  rhsBatch := []
  wf := dot_S320000x256_S256x10_S320000x10_1_0_0_1_n_n_wf

class Facts : Prop extends Facts₀ where

variable [Facts]
-- ==== Proof.EdgeScore.lean ====
/-
  Scoring one edge of a graph from its two endpoints' feature rows.

  Given the endpoints' rows `u` (source) and `v` (target), 256 features each, the score vector of the edge is
    h j   = max (Σₖ u k · W₁(k, j)  +  Σₖ v k · W₁(256 + k, j)  +  b₁ j , 0)          (256 hidden units)
    ℓ q   = Σⱼ h j · W₂(j, q)  +  b₂ q                                               (10 logits)
    out q = (ℓ q − M) − log Σ_c exp (ℓ c − M),        M = the largest logit                (log-softmax)
  over the extended reals. One program multiplies the 512-wide row (u, v) by the whole of W₁ in one sum over 512
  terms; the other multiplies u by the upper half of W₁ and v by the lower half and adds the two 256-term sums: a sum over
  512 indices is the sum over the first 256 plus the sum over the last 256 (`sum_halves`), a law of any commutative
  monoid, so it holds for the extended reals whatever the values.

  The endpoint rows are rows of the node table, chosen by 32-bit words. One program reads the row the word names (after the
  wrap of a negative word and the clamp into the table that array indexing applies); the other multiplies the table by a
  0/1 row that has its single 1 where the position equals the word (`select_row`). For a word in [0, 10000) both are the row
  the word names.
-/
import Idealize.ShloMosaic.PureOps.Ideal
import Idealize.ShloMosaic.Lib.ValueIdx
import Mathlib.Algebra.BigOperators.Fin
import Mathlib.Data.Finset.Fold

noncomputable section

namespace Cert.EdgeScore

open Idealize.ShloMosaic Idealize.ShloMosaic.ValueIdx
open scoped BigOperators

/-! ## A 512-term sum in two halves -/

/-- Row `k` of the upper half of a 512-row array, -/
abbrev lo (k : Fin 256) : Fin 512 := ⟨k.val, by omega⟩
/-- and of its lower half. -/
abbrev hi (k : Fin 256) : Fin 512 := ⟨256 + k.val, by omega⟩

theorem sum_halves (f : Fin 512 → EReal) :
    ∑ k : Fin 512, f k = (∑ k : Fin 256, f (lo k)) + ∑ k : Fin 256, f (hi k) :=
  Fin.sum_univ_add (a := 256) (b := 256) f

/-- The 512-wide row made of `u` then `v`. -/
def cat (u v : Fin 256 → EReal) (k : Fin 512) : EReal :=
  if h : k.val < 256 then u ⟨k.val, h⟩ else v ⟨k.val - 256, by omega⟩

theorem cat_lo (u v : Fin 256 → EReal) (k : Fin 256) : cat u v (lo k) = u k := by
  unfold cat; rw [dif_pos (show (lo k).val < 256 from k.isLt)]

theorem cat_hi (u v : Fin 256 → EReal) (k : Fin 256) : cat u v (hi k) = v k := by
  unfold cat
  rw [dif_neg (show ¬(hi k).val < 256 by show ¬(256 + k.val < 256); omega)]
  exact congrArg v (Fin.ext (by show 256 + k.val - 256 = k.val; omega))

/-! ## The score of one edge -/

/-- The hidden layer on the endpoints' rows: the two half products, the bias, the rectifier (against the word for 0). -/
def hidden (W1 : (⟨2, ![512, 256]⟩ : Shape).Idx → EReal) (b1 : (⟨1, ![256]⟩ : Shape).Idx → EReal) (u v : Fin 256 → EReal)
    (j : Fin 256) : EReal :=
  max (((∑ k : Fin 256, u k * W1 (ix2 (lo k) j)) + ∑ k : Fin 256, v k * W1 (ix2 (hi k) j)) + b1 (ix1 j))
    (Ideal.ofBits .f32 0x00000000#32)

/-- The same from the one product with the 512-wide row. -/
theorem hidden_cat (W1 : (⟨2, ![512, 256]⟩ : Shape).Idx → EReal) (b1 : (⟨1, ![256]⟩ : Shape).Idx → EReal) (u v : Fin 256 → EReal)
    (j : Fin 256) :
    max ((∑ k : Fin 512, cat u v k * W1 (ix2 k j)) + b1 (ix1 j)) (Ideal.ofBits .f32 0x00000000#32) = hidden W1 b1 u v j := by
  unfold hidden
  rw [sum_halves]
  simp only [cat_lo, cat_hi]

/-- The ten logits of a hidden row. -/
def logit (W2 : (⟨2, ![256, 10]⟩ : Shape).Idx → EReal) (b2 : (⟨1, ![10]⟩ : Shape).Idx → EReal) (h : Fin 256 → EReal) (q : Fin 10) : EReal :=
  (∑ j : Fin 256, h j * W2 (ix2 j q)) + b2 (ix1 q)

/-- The largest of ten values, folded from the word for −∞. -/
def top (l : Fin 10 → EReal) : EReal := (Finset.univ : Finset (Fin 10)).fold max (Ideal.ofBits .f32 0xFF800000#32) l

/-- The fold starts from that word, so taking the maximum with it once more changes nothing. -/
theorem max_top (l : Fin 10 → EReal) : max (Ideal.ofBits .f32 0xFF800000#32) (top l) = top l :=
  max_eq_right ((Finset.le_fold_max _).mpr (Or.inl le_rfl))

/-- Log-softmax of ten logits. -/
def logSoftmax (l : Fin 10 → EReal) (q : Fin 10) : EReal :=
  (l q - top l) - Ideal.log (∑ c : Fin 10, Ideal.exp (l c - top l))

/-- The score vector of an edge with endpoint rows `u`, `v`. -/
def score (W1 : (⟨2, ![512, 256]⟩ : Shape).Idx → EReal) (b1 : (⟨1, ![256]⟩ : Shape).Idx → EReal)
    (W2 : (⟨2, ![256, 10]⟩ : Shape).Idx → EReal) (b2 : (⟨1, ![10]⟩ : Shape).Idx → EReal) (u v : Fin 256 → EReal) (q : Fin 10) : EReal :=
  logSoftmax (logit W2 b2 (hidden W1 b1 u v)) q

/-! ## Which row of the node table a word names -/

/-- Array indexing's treatment of a word: a negative word is taken from the end of the 10000 rows, -/
def wrap (w : BitVec 32) : BitVec 32 := Scalar.select (IntOp.cmpi .slt w 0#32) (IntOp.addi w 10000#32) w

/-- and the result, read signed, is clamped into the table. -/
def node (w : BitVec 32) : Fin 10000 := ⟨min (wrap w).toInt.toNat 9999, by omega⟩

/-- A word in [0, 10000), as the two signed comparisons of the precondition say it. -/
def InRange (w : BitVec 32) : Prop := IntOp.cmpi .sge w 0#32 = 1#1 ∧ IntOp.cmpi .slt w 10000#32 = 1#1

theorem InRange.toInt {w : BitVec 32} (h : InRange w) : 0 ≤ w.toInt ∧ w.toInt < 10000 := by
  obtain ⟨h0, h1⟩ := h
  have e0 : (0#32 : BitVec 32).toInt = 0 := by decide
  have e1 : (10000#32 : BitVec 32).toInt = 10000 := by decide
  constructor
  · have : (0#32 : BitVec 32).sle w = true := by
      cases hb : (0#32 : BitVec 32).sle w
      · rw [show IntOp.cmpi .sge w 0#32 = BitVec.ofBool ((0#32 : BitVec 32).sle w) from rfl, hb] at h0; exact absurd h0 (by decide)
      · rfl
    have := (BitVec.sle_iff_toInt_le).mp this
    omega
  · have : w.slt 10000#32 = true := by
      cases hb : w.slt 10000#32
      · rw [show IntOp.cmpi .slt w 10000#32 = BitVec.ofBool (w.slt 10000#32) from rfl, hb] at h1; exact absurd h1 (by decide)
      · rfl
    have := (BitVec.slt_iff_toInt_lt).mp this
    omega

theorem InRange.toNat_lt {w : BitVec 32} (h : InRange w) : w.toNat < 10000 := by
  have := h.toInt
  have e := BitVec.toInt_eq_toNat_cond w
  have hw := w.isLt
  split at e <;> omega

theorem InRange.toInt_eq {w : BitVec 32} (h : InRange w) : w.toInt = w.toNat := by
  have := h.toInt
  have e := BitVec.toInt_eq_toNat_cond w
  have hw := w.isLt
  split at e <;> omega

/-- A word in range is not wrapped, -/
theorem InRange.wrap_eq {w : BitVec 32} (h : InRange w) : wrap w = w := by
  have hneg : ¬ IntOp.cmpi .slt w 0#32 = 1#1 := by
    intro hc
    have : w.slt 0#32 = true := by
      cases hb : w.slt 0#32
      · rw [show IntOp.cmpi .slt w 0#32 = BitVec.ofBool (w.slt 0#32) from rfl, hb] at hc; exact absurd hc (by decide)
      · rfl
    have := (BitVec.slt_iff_toInt_lt).mp this
    have e0 : (0#32 : BitVec 32).toInt = 0 := by decide
    have := h.toInt
    omega
  unfold wrap Scalar.select
  exact if_neg hneg

/-- and names the row of its own value. -/
theorem InRange.node_eq {w : BitVec 32} (h : InRange w) : node w = ⟨w.toNat, h.toNat_lt⟩ := by
  apply Fin.ext
  show min (wrap w).toInt.toNat 9999 = w.toNat
  rw [h.wrap_eq, h.toInt_eq]
  have := h.toNat_lt
  simp only [Int.toNat_natCast]
  omega

/-! ## Selecting a row by a 0/1 row -/

/-- The coefficient at position `n` of the 0/1 row for the word `w`: the comparison's bit, widened to a word and read as a
    signed integer. -/
def hot (w : BitVec 32) (n : ℕ) : EReal := ((((IntOp.cmpi .eq w (BitVec.ofNat 32 n)).setWidth 32).toInt : ℝ) : EReal)

theorem hot_eq {w : BitVec 32} {n : ℕ} (h : w = BitVec.ofNat 32 n) : hot w n = 1 := by
  unfold hot
  have hc : IntOp.cmpi .eq w (BitVec.ofNat 32 n) = 1#1 := by
    rw [show IntOp.cmpi .eq w (BitVec.ofNat 32 n) = BitVec.ofBool (w == BitVec.ofNat 32 n) from rfl, h]; simp
  rw [hc]
  have e : ((1#1 : BitVec 1).setWidth 32).toInt = 1 := by decide
  rw [e]; simp

theorem hot_ne {w : BitVec 32} {n : ℕ} (h : w ≠ BitVec.ofNat 32 n) : hot w n = 0 := by
  unfold hot
  have hc : IntOp.cmpi .eq w (BitVec.ofNat 32 n) = 0#1 := by
    rw [show IntOp.cmpi .eq w (BitVec.ofNat 32 n) = BitVec.ofBool (w == BitVec.ofNat 32 n) from rfl]
    have : (w == BitVec.ofNat 32 n) = false := by simpa using h
    rw [this]; rfl
  rw [hc]
  have e : ((0#1 : BitVec 1).setWidth 32).toInt = 0 := by decide
  rw [e]; simp

/-- The product of the 0/1 row of an in-range word with a column of the table is the column's entry at the word's row. -/
theorem select_row (X : Fin 10000 → EReal) {w : BitVec 32} (h : InRange w) :
    ∑ n : Fin 10000, hot w n.val * X n = X (node w) := by
  rw [h.node_eq]
  have hw := h.toNat_lt
  rw [Finset.sum_eq_single (⟨w.toNat, hw⟩ : Fin 10000)]
  · have hself : w = BitVec.ofNat 32 w.toNat := by
      apply BitVec.eq_of_toNat_eq
      rw [BitVec.toNat_ofNat]
      exact (Nat.mod_eq_of_lt w.isLt).symm
    rw [hot_eq hself, one_mul]
  · intro n _ hne
    rw [hot_ne, zero_mul]
    intro hwn
    apply hne
    apply Fin.ext
    show n.val = w.toNat
    rw [hwn, BitVec.toNat_ofNat]
    have := n.isLt
    omega
  · intro hnot; exact absurd (Finset.mem_univ _) hnot

/-! ## All the edges -/

/-- The score array: edge `e`'s vector from the node rows that column `e` of the edge index names. -/
def scores (x : (⟨2, ![10000, 256]⟩ : Shape).Idx → EReal) (E : IVec ⟨2, ![2, 320000]⟩ 32)
    (W1 : (⟨2, ![512, 256]⟩ : Shape).Idx → EReal) (b1 : (⟨1, ![256]⟩ : Shape).Idx → EReal)
    (W2 : (⟨2, ![256, 10]⟩ : Shape).Idx → EReal) (b2 : (⟨1, ![10]⟩ : Shape).Idx → EReal) :
    (⟨2, ![320000, 10]⟩ : Shape).Idx → EReal :=
  fun i => score W1 b1 W2 b2 (fun k => x (ix2 (node (E (ix2 0 (i 0)))) k)) (fun k => x (ix2 (node (E (ix2 1 (i 0)))) k)) (i 1)

end Cert.EdgeScore

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.LibRowReduce.lean ====
/-
  A statistic of each row of a rank-2 array, and the statistic set back beside every entry of its row.

  For an `[n, m]` array whose rows are reduced along the columns into an `[n]` vector:
  * the index the reduction reads for row `p` at position `c` is `(p, c)` (`lift_cols`), so the kernel's sum along the columns
    is, at row `p`, `∑ c, src (p, c)` (`rowSum_apply`) and its maximum the fold of `max` over `c ↦ src (p, c)` from the
    accumulator's value (`rowMax_apply`);
  * an `[n, 1]` column broadcast across `m` columns reads at `(r, c)` the column at `r` (`colBcast_apply`), and so an `[n]`
    vector kept as a column and broadcast — NumPy's `keepdims` followed by a broadcast against the array — reads at `(r, c)` the
    vector at `r` (`keepdims_apply`).
  Nothing depends on `n` or `m`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowReduce

open Idealize.ShloMosaic Idealize.ShloMosaic.ValueIdx
open scoped BigOperators

variable {α : Type}

/-- An `[n, 1]` column broadcast across `m` columns reads, at `(r, c)`, the column at `r`. -/
theorem colBcast_apply {n m : ℕ} (v : (⟨2, ![n, 1]⟩ : Shape).Idx → α) (h : (⟨2, ![n, 1]⟩ : Shape).Broadcasts ⟨2, ![n, m]⟩)
    (r : Fin n) (c : Fin m) : broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ => rfl

/-- An `[n]` vector kept as an `[n, 1]` column and broadcast across `m` columns reads, at `(r, c)`, the vector at `r`. -/
theorem keepdims_apply {n m : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, m]⟩) (r : Fin n) (c : Fin m) :
    broadcastTo ⟨2, ![n, m]⟩ (shapeCast ⟨2, ![n, 1]⟩ v hc) hb (ix2 r c) = v (ix1 r) := by
  rw [colBcast_apply]
  exact shapeCast_apply v hc _ _ (by
    rw [Shape.rowMajor_val_one, Shape.rowMajor_val_two]
    show r.val = r.val * 1 + 0
    omega)

/-- The index a reduction along the columns reads for row `p` at position `c` is `(p, c)`. -/
theorem lift_cols {n m : ℕ} (h : (⟨2, ![n, m]⟩ : Shape).Reduces [(1 : Fin 2)] ⟨1, ![n]⟩) (p : Fin n) (c : Fin m) :
    h.lift (ix1 p) c = ix2 p c := by
  funext a
  match a with
  | ⟨0, _⟩ => exact Fin.ext rfl
  | ⟨1, _⟩ => exact Fin.ext rfl

/-- The kernel's sum along the columns, at row `p`: the sum of the row's entries. -/
theorem rowSum_apply {n m : ℕ} {φ : FTy} (src : FVec Ideal ⟨2, ![n, m]⟩ φ) (acc : BitVec φ.bits)
    (h : (⟨2, ![n, m]⟩ : Shape).Reduces [(1 : Fin 2)] ⟨1, ![n]⟩) (hφ : FKind.Formats φ) (hacc : acc = FKind.add.neutral φ hφ) (p : Fin n) :
    multiReduction .add [1] ⟨1, ![n]⟩ src acc h hφ hacc (ix1 p) = ∑ c : Fin m, src (ix2 p c) := by
  rw [Ideal.multiReduction_add_single]
  exact Finset.sum_congr rfl fun c _ => congrArg src (lift_cols h p c)

/-- The kernel's maximum along the columns, at row `p`: the fold of `max` over the row's entries from the accumulator's value. -/
theorem rowMax_apply {n m : ℕ} {φ : FTy} (src : FVec Ideal ⟨2, ![n, m]⟩ φ) (acc : BitVec φ.bits)
    (h : (⟨2, ![n, m]⟩ : Shape).Reduces [(1 : Fin 2)] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin m)).fold max (Ideal.ofBits φ acc) (fun c => src (ix2 p c)) := by
  rw [Ideal.multiReduction_maximumf_single]
  have e : (src ∘ h.lift (ix1 p)) = fun c : Fin m => src (ix2 p c) := funext fun c => congrArg src (lift_cols h p c)
  rw [e]
  rfl

end Cert.LibRowReduce

end
-- ==== Proof.KernelBlock.lean ====
/-
  What the kernel's body leaves in its output block, read at an index.

  At one grid point the body loads a [512, 1] column of words `idx` (256 source nodes, then 256 target nodes), the whole
  node table `X` [10000, 256], the two halves `A`, `B` of the first layer's weights, its bias, and the second layer. It
  builds the 0/1 array [512, 10000] whose row `r` has its 1 at position `idx r`, multiplies it by `X` — which, for words in
  range, selects row `idx r` of `X` (`EdgeScore.select_row`) —, and runs the two layers and the log-softmax on the rows.
  So entry `(p, q)` of the block is the score `q` of the edge whose endpoints are the nodes `idx p` and `idx (256 + p)`.

  The body's arithmetic is one term (the generated `k0_pay2`, then the block `E6` of the generated value leg over it); it is
  restated here as a tree of four named arrays — the 0/1 array, the gathered rows, the hidden block, the logit block —
  and each is read at an index from the one before.
-/
import proofs.«424090_j70909910057016_3_alg».proof.Proof.Gen.KernelIdeal.Value
import proofs.«424090_j70909910057016_3_alg».proof.Proof.EdgeScore
import proofs.«424090_j70909910057016_3_alg».proof.Proof.LibRowOps
import proofs.«424090_j70909910057016_3_alg».proof.Proof.LibRowReduce

noncomputable section

namespace Cert.KernelIdeal.Block

open Cert.KernelIdeal Cert.KernelIdeal.Gen
open Idealize.ShloMosaic Idealize.ShloMosaic.TcCoe Idealize.SL.Sem Idealize.ShloMosaic.ValueIdx
open Cert.EdgeScore Cert.LibRowOps Cert.LibRowReduce
open scoped BigOperators

variable (P0 : IVec S512x1 32) (P1 : FVec Ideal S10000x256 .bf16) (P2 P3 : FVec Ideal S256x256 .bf16) (P4 : FVec Ideal S256 .f32)
  (P5 : FVec Ideal S256x10 .bf16) (P6 : FVec Ideal S10 .f32)

/-! ## The body as a tree of four arrays -/

/-- The 0/1 array: entry `(r, n)` compares word `r` of the column with the position `n`. -/
def onehot : FVec Ideal S512x10000 .bf16 :=
  truncf .bf16 (sitofp .f32 (extui 32 (cmpi .eq (broadcastTo S512x10000 (shapeCast S512x1 P0 shapeCasts_S512x1_S512x1) broadcasts_S512x1_S512x10000)
    (broadcastTo S512x10000 (iota .tc S1x10000 32 [1] iota_S1x10000_d1_w32) broadcasts_S1x10000_S512x10000)) natLt_1_32)) bitsLt_bf16_f32

/-- The 0/1 array times the node table. -/
def gathered : FVec Ideal S512x256 .f32 :=
  matmul dot_S512x10000_S10000x256_S512x256_1_0_0_1_n_n none (onehot P0) (shapeCast S10000x256 P1 shapeCasts_S10000x256_S10000x256)
    (constant S512x256 .f32 0x00000000#32)

/-- The first layer on the upper and the lower 256 gathered rows, with the rectifier. -/
def hiddenBlock : FVec Ideal S256x256 .f32 :=
  maximumf
    (addf
      (addf
        (matmul dot_S256x256_S256x256_S256x256_1_0_0_1_n_n none
          (truncf .bf16 (extractStridedSlice S256x256 ![0, 0] (gathered P0 P1) slices_S512x256_o0_0_S256x256) bitsLt_bf16_f32)
          (shapeCast S256x256 P2 shapeCasts_S256x256_S256x256) (constant S256x256 .f32 0x00000000#32))
        (matmul dot_S256x256_S256x256_S256x256_1_0_0_1_n_n none
          (truncf .bf16 (extractStridedSlice S256x256 ![256, 0] (gathered P0 P1) slices_S512x256_o256_0_S256x256) bitsLt_bf16_f32)
          (shapeCast S256x256 P3 shapeCasts_S256x256_S256x256) (constant S256x256 .f32 0x00000000#32)))
      (broadcastTo S256x256 (shapeCast S1x256 P4 shapeCasts_S256_S1x256) broadcasts_S1x256_S256x256))
    (broadcast S256x256 (Scalar.ofBits .f32 0x00000000#32))

/-- The second layer. -/
def logitBlock : FVec Ideal S256x10 .f32 :=
  addf
    (matmul dot_S256x256_S256x10_S256x10_1_0_0_1_n_n none (truncf .bf16 (hiddenBlock P0 P1 P2 P3 P4) bitsLt_bf16_f32)
      (shapeCast S256x10 P5 shapeCasts_S256x10_S256x10) (constant S256x10 .f32 0x00000000#32))
    (broadcastTo S256x10 (shapeCast S1x10 P6 shapeCasts_S10_S1x10) broadcasts_S1x10_S256x10)

/-- The body's first sixty statements: the logit block with each row's maximum taken off. -/
theorem pay2_tree : k0_pay2 (F := Ideal) P0 P1 P2 P3 P4 P5 P6
    = subf (logitBlock P0 P1 P2 P3 P4 P5 P6)
        (broadcastTo S256x10 (shapeCast S256x1 (multiReduction .maximumf [1] S256 (logitBlock P0 P1 P2 P3 P4 P5 P6) 0xFF800000#32
          reduces_S256x10_S256 (.inl rfl) rfl) shapeCasts_S256_S256x1) broadcasts_S256x1_S256x10) := rfl

/-! ## Each array at an index -/

/-- Entry `(r, n)` of the 0/1 array is the coefficient `hot` of word `r` at position `n`. -/
theorem onehot_apply (r : Fin 512) (n : Fin 10000) : onehot P0 (ix2 r n) = hot (P0 (ix2 r 0)) n.val := by
  have e1 : broadcastTo S512x10000 (shapeCast S512x1 P0 shapeCasts_S512x1_S512x1) broadcasts_S512x1_S512x10000 (ix2 r n) = P0 (ix2 r 0) := by
    rw [colBcast_apply, shapeCast_self]
  have e2 : broadcastTo S512x10000 (iota .tc S1x10000 32 [1] iota_S1x10000_d1_w32) broadcasts_S1x10000_S512x10000 (ix2 r n)
      = BitVec.ofNat 32 n.val := by
    rw [broadcastTo_1b_ab_apply]
    show BitVec.ofNat 32 (0 * 10000 + n.val) = _
    rw [Nat.zero_mul, Nat.zero_add]
  show FloatOps.sitofp (F := Ideal) .f32 ((IntOp.cmpi .eq
      (broadcastTo S512x10000 (shapeCast S512x1 P0 shapeCasts_S512x1_S512x1) broadcasts_S512x1_S512x10000 (ix2 r n))
      (broadcastTo S512x10000 (iota .tc S1x10000 32 [1] iota_S1x10000_d1_w32) broadcasts_S1x10000_S512x10000 (ix2 r n))).setWidth 32) = _
  rw [e1, e2]
  rfl

/-- Row `r` of the gathered array is the row of the node table that word `r` names, when the word is in range. -/
theorem gathered_apply (r : Fin 512) (k : Fin 256) (h : InRange (P0 (ix2 r 0))) :
    gathered P0 P1 (ix2 r k) = P1 (ix2 (node (P0 (ix2 r 0))) k) := by
  unfold gathered
  refine (prod_apply _ rfl (onehot P0) _ r k (fun n => hot (P0 (ix2 r 0)) n.val) (fun n => onehot_apply P0 r n)).trans ?_
  rw [shapeCast_self]
  exact select_row (fun n => P1 (ix2 n k)) h

/-- Row `p` of the hidden block is the hidden layer on the two rows of the node table that words `p` and `256 + p` name. -/
theorem hiddenBlock_apply (W1 : (⟨2, ![512, 256]⟩ : Shape).Idx → EReal)
    (h2 : ∀ (k j : Fin 256), P2 (ix2 k j) = W1 (ix2 (lo k) j)) (h3 : ∀ (k j : Fin 256), P3 (ix2 k j) = W1 (ix2 (hi k) j))
    (p j : Fin 256) (hs : InRange (P0 (ix2 (lo p) 0))) (hd : InRange (P0 (ix2 (hi p) 0))) :
    hiddenBlock P0 P1 P2 P3 P4 (ix2 p j)
      = EdgeScore.hidden W1 P4 (fun k => P1 (ix2 (node (P0 (ix2 (lo p) 0))) k)) (fun k => P1 (ix2 (node (P0 (ix2 (hi p) 0))) k)) j := by
  have eu : ∀ k : Fin 256, (truncf .bf16 (extractStridedSlice S256x256 ![0, 0] (gathered P0 P1) slices_S512x256_o0_0_S256x256) bitsLt_bf16_f32 : FVec Ideal S256x256 .bf16) (ix2 p k)
      = P1 (ix2 (node (P0 (ix2 (lo p) 0))) k) := fun k =>
    (slice2_axis0_apply 0 (gathered P0 P1) slices_S512x256_o0_0_S256x256 p k (lo p) (Nat.zero_add _).symm).trans (gathered_apply P0 P1 (lo p) k hs)
  have ev : ∀ k : Fin 256, (truncf .bf16 (extractStridedSlice S256x256 ![256, 0] (gathered P0 P1) slices_S512x256_o256_0_S256x256) bitsLt_bf16_f32 : FVec Ideal S256x256 .bf16) (ix2 p k)
      = P1 (ix2 (node (P0 (ix2 (hi p) 0))) k) := fun k =>
    (slice2_axis0_apply 256 (gathered P0 P1) slices_S512x256_o256_0_S256x256 p k (hi p) rfl).trans (gathered_apply P0 P1 (hi p) k hd)
  unfold hiddenBlock EdgeScore.hidden
  show max ((matmul dot_S256x256_S256x256_S256x256_1_0_0_1_n_n none _ (shapeCast S256x256 P2 shapeCasts_S256x256_S256x256) (constant S256x256 .f32 0x00000000#32) (ix2 p j)
      + matmul dot_S256x256_S256x256_S256x256_1_0_0_1_n_n none _ (shapeCast S256x256 P3 shapeCasts_S256x256_S256x256) (constant S256x256 .f32 0x00000000#32) (ix2 p j))
      + broadcastTo S256x256 (shapeCast S1x256 P4 shapeCasts_S256_S1x256) broadcasts_S1x256_S256x256 (ix2 p j)) (Ideal.ofBits .f32 0x00000000#32) = _
  have ea : matmul dot_S256x256_S256x256_S256x256_1_0_0_1_n_n none
        (truncf .bf16 (extractStridedSlice S256x256 ![0, 0] (gathered P0 P1) slices_S512x256_o0_0_S256x256) bitsLt_bf16_f32 : FVec Ideal S256x256 .bf16)
        (shapeCast S256x256 P2 shapeCasts_S256x256_S256x256) (constant S256x256 .f32 0x00000000#32) (ix2 p j)
      = ∑ k : Fin 256, P1 (ix2 (node (P0 (ix2 (lo p) 0))) k) * P2 (ix2 k j) := by
    refine (prod_apply _ rfl _ _ p j (fun k => P1 (ix2 (node (P0 (ix2 (lo p) 0))) k)) eu).trans ?_
    rw [shapeCast_self]
  have eb : matmul dot_S256x256_S256x256_S256x256_1_0_0_1_n_n none
        (truncf .bf16 (extractStridedSlice S256x256 ![256, 0] (gathered P0 P1) slices_S512x256_o256_0_S256x256) bitsLt_bf16_f32 : FVec Ideal S256x256 .bf16)
        (shapeCast S256x256 P3 shapeCasts_S256x256_S256x256) (constant S256x256 .f32 0x00000000#32) (ix2 p j)
      = ∑ k : Fin 256, P1 (ix2 (node (P0 (ix2 (hi p) 0))) k) * P3 (ix2 k j) := by
    refine (prod_apply _ rfl _ _ p j (fun k => P1 (ix2 (node (P0 (ix2 (hi p) 0))) k)) ev).trans ?_
    rw [shapeCast_self]
  rw [ea, eb, rowBcast_apply]
  simp only [h2, h3]

/-- Row `p` of the logit block is the ten logits of that hidden row. -/
theorem logitBlock_apply (p : Fin 256) (q : Fin 10) :
    logitBlock P0 P1 P2 P3 P4 P5 P6 (ix2 p q) = logit P5 P6 (fun j => hiddenBlock P0 P1 P2 P3 P4 (ix2 p j)) q := by
  unfold logitBlock logit
  refine (layer_apply _ rfl (truncf .bf16 (hiddenBlock P0 P1 P2 P3 P4) bitsLt_bf16_f32) (shapeCast S256x10 P5 shapeCasts_S256x10_S256x10) P6
    shapeCasts_S10_S1x10 broadcasts_S1x10_S256x10 p q (fun j => hiddenBlock P0 P1 P2 P3 P4 (ix2 p j)) (fun _ => rfl)).trans ?_
  rw [shapeCast_self]

/-- The body's first sixty statements at `(p, q)`: logit `q` of row `p` less the row's largest. -/
theorem pay2_apply (p : Fin 256) (q : Fin 10) :
    k0_pay2 (F := Ideal) P0 P1 P2 P3 P4 P5 P6 (ix2 p q)
      = logitBlock P0 P1 P2 P3 P4 P5 P6 (ix2 p q) - top (fun c => logitBlock P0 P1 P2 P3 P4 P5 P6 (ix2 p c)) := by
  rw [pay2_tree]
  show logitBlock P0 P1 P2 P3 P4 P5 P6 (ix2 p q) - broadcastTo S256x10 (shapeCast S256x1 _ shapeCasts_S256_S256x1) broadcasts_S256x1_S256x10 (ix2 p q) = _
  rw [keepdims_apply]
  exact congrArg (fun t => logitBlock P0 P1 P2 P3 P4 P5 P6 (ix2 p q) - t)
    (rowMax_apply (logitBlock P0 P1 P2 P3 P4 P5 P6) 0xFF800000#32 reduces_S256x10_S256 (.inl rfl) rfl p)

/-- THE BLOCK at `(p, q)`: the score `q` of the edge whose endpoints the words `p` and `256 + p` of the column name. -/
theorem block_apply (W1 : (⟨2, ![512, 256]⟩ : Shape).Idx → EReal)
    (h2 : ∀ (k j : Fin 256), P2 (ix2 k j) = W1 (ix2 (lo k) j)) (h3 : ∀ (k j : Fin 256), P3 (ix2 k j) = W1 (ix2 (hi k) j))
    (p : Fin 256) (q : Fin 10) (hs : InRange (P0 (ix2 (lo p) 0))) (hd : InRange (P0 (ix2 (hi p) 0))) :
    Cert.KernelIdeal.Value.E6 (F := Ideal) P0 P1 P2 P3 P4 P5 P6 (ix2 p q)
      = score W1 P4 P5 P6 (fun k => P1 (ix2 (node (P0 (ix2 (lo p) 0))) k)) (fun k => P1 (ix2 (node (P0 (ix2 (hi p) 0))) k)) q := by
  have i0 : Cert.KernelIdeal.Value.ix6_0 (ix2 p q) = ix2 p q := by
    funext a; match a with | ⟨0, _⟩ => rfl | ⟨1, _⟩ => rfl
  have i1 : Cert.KernelIdeal.Value.ix6_1 (ix2 p q) = ix1 p := by
    funext a; match a with | ⟨0, _⟩ => rfl
  have hrow : (fun c => logitBlock P0 P1 P2 P3 P4 P5 P6 (ix2 p c))
      = logit P5 P6 (EdgeScore.hidden W1 P4 (fun k => P1 (ix2 (node (P0 (ix2 (lo p) 0))) k)) (fun k => P1 (ix2 (node (P0 (ix2 (hi p) 0))) k))) := by
    funext c
    rw [logitBlock_apply]
    exact congrArg (fun h => logit P5 P6 h c) (funext fun j => hiddenBlock_apply P0 P1 P2 P3 P4 W1 h2 h3 p j hs hd)
  show (k0_pay2 (F := Ideal) P0 P1 P2 P3 P4 P5 P6 (Cert.KernelIdeal.Value.ix6_0 (ix2 p q)))
      - Ideal.log (multiReduction .add [1] S256 (exp (k0_pay2 (F := Ideal) P0 P1 P2 P3 P4 P5 P6)) 0x00000000#32 reduces_S256x10_S256 (.inl rfl) rfl (Cert.KernelIdeal.Value.ix6_1 (ix2 p q))) = _
  rw [i0, i1]
  have hz : ∀ c : Fin 10, k0_pay2 (F := Ideal) P0 P1 P2 P3 P4 P5 P6 (ix2 p c)
      = logitBlock P0 P1 P2 P3 P4 P5 P6 (ix2 p c) - top (fun c => logitBlock P0 P1 P2 P3 P4 P5 P6 (ix2 p c)) :=
    fun c => pay2_apply P0 P1 P2 P3 P4 P5 P6 p c
  have hsum : multiReduction .add [1] S256 (exp (k0_pay2 (F := Ideal) P0 P1 P2 P3 P4 P5 P6)) 0x00000000#32 reduces_S256x10_S256 (.inl rfl) rfl (ix1 p)
      = ∑ c : Fin 10, Ideal.exp (logitBlock P0 P1 P2 P3 P4 P5 P6 (ix2 p c) - top (fun c => logitBlock P0 P1 P2 P3 P4 P5 P6 (ix2 p c))) :=
    (rowSum_apply (exp (k0_pay2 (F := Ideal) P0 P1 P2 P3 P4 P5 P6)) 0x00000000#32 reduces_S256x10_S256 (.inl rfl) rfl p).trans
      (Finset.sum_congr rfl fun c _ => congrArg Ideal.exp (hz c))
  rw [hz q, hsum]
  unfold score logSoftmax
  rw [← hrow]

end Cert.KernelIdeal.Block

end
-- ==== Proof.KernelInputs.lean ====
/-
  What the kernel's region finds in the buffers its windows stage, as functions of the arguments.

  Before the region the host lays the two rows of the edge index as ONE column of 640000 words: the edges are cut in
  1250 groups of 256, and group `g` contributes 512 consecutive words — its 256 source nodes, then its 256 target nodes.
  So word `g · 512 + s · 256 + p` of the column is entry `(s, g · 256 + p)` of the edge index (`wordColumn_apply`): row
  `s = 0` the sources, `s = 1` the targets. The node features and the two weight matrices pass through a change of float
  format, which is the identity on extended reals.
-/
import proofs.«424090_j70909910057016_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Inputs

open Cert.KernelIdeal Cert.KernelIdeal.Gen
open Idealize.ShloMosaic Idealize.ShloMosaic.TcCoe Idealize.SL.Sem Idealize.ShloMosaic.ValueIdx Idealize.ShloMosaic.StableHlo

/-- The column of words the region stages, from the edge index. -/
def wordColumn (E : IVec S2x320000 32) : IVec S640000x1 32 :=
  shapeCast S640000x1 (concatenate S1250x2x256 1
    [⟨S1250x1x256, broadcastInDim S1250x1x256 ![0, 2] bcast_S1250x256_S1250x1x256_0_2
        (shapeCast S1250x256 (shapeCast S320000 (extractStridedSlice S1x320000 ![0, 0] E slices_S2x320000_S1x320000_0_0)
          shapeCasts_S1x320000_S320000) shapeCasts_S320000_S1250x256)⟩,
     ⟨S1250x1x256, broadcastInDim S1250x1x256 ![0, 2] bcast_S1250x256_S1250x1x256_0_2
        (shapeCast S1250x256 (shapeCast S320000 (extractStridedSlice S1x320000 ![1, 0] E slices_S2x320000_S1x320000_1_0)
          shapeCasts_S1x320000_S320000) shapeCasts_S320000_S1250x256)⟩]
    concatenates_S1250x1x256_S1250x1x256_S1250x2x256_d1) shapeCasts_S1250x2x256_S640000x1

/-- One row of the edge index cut in 1250 groups of 256 and given a unit middle axis, at `(g, 0, p)`: the row at `g · 256 + p`. -/
theorem groups_apply (R : IVec S1x320000 32) (g : Fin 1250) (p : Fin 256) :
    broadcastInDim S1250x1x256 ![0, 2] bcast_S1250x256_S1250x1x256_0_2
      (shapeCast S1250x256 (shapeCast S320000 R shapeCasts_S1x320000_S320000) shapeCasts_S320000_S1250x256) (ix3 g (0 : Fin 1) p)
      = R (ix2 (0 : Fin 1) ⟨g.val * 256 + p.val, by omega⟩) := by
  refine (broadcastInDim_apply _ _ _ _ (ix2 g p) (fun a => by match a with | ⟨0, _⟩ => rfl | ⟨1, _⟩ => rfl)).trans ?_
  refine (shapeCast_apply _ _ _ (ix1 ⟨g.val * 256 + p.val, by omega⟩) (by
    rw [Shape.rowMajor_val_one, Shape.rowMajor_val_two]; rfl)).trans ?_
  exact shapeCast_1a_a_apply R _ _

/-- Word `g · 512 + s · 256 + p` of the column is entry `(s, g · 256 + p)` of the edge index. -/
theorem wordColumn_apply (E : IVec S2x320000 32) (g : Fin 1250) (s : Fin 2) (p : Fin 256) :
    wordColumn E (ix2 ⟨g.val * 512 + s.val * 256 + p.val, by omega⟩ (0 : Fin 1)) = E (ix2 s ⟨g.val * 256 + p.val, by omega⟩) := by
  unfold wordColumn
  refine (shapeCast_apply _ _ _ (ix3 g s p) (by
    rw [Shape.rowMajor_val_three, Shape.rowMajor_val_two]
    show (g.val * 2 + s.val) * 256 + p.val = (g.val * 512 + s.val * 256 + p.val) * 1 + 0
    omega)).trans ?_
  match s with
  | ⟨0, _⟩ =>
    refine (concatenate_pair_apply_left (t := S1250x2x256) (s₁ := S1250x1x256) (s₂ := S1250x1x256) 1 _ _ _ (ix3 g (0 : Fin 2) p) rfl (ix3 g (0 : Fin 1) p)
      (fun b => by match b with | ⟨0, _⟩ => rfl | ⟨1, _⟩ => rfl | ⟨2, _⟩ => rfl)).trans ?_
    refine (groups_apply _ g p).trans ?_
    exact slice2_axis0_apply 0 E slices_S2x320000_S1x320000_0_0 (0 : Fin 1) _ (0 : Fin 2) rfl
  | ⟨1, _⟩ =>
    refine (concatenate_pair_apply_right (t := S1250x2x256) (s₁ := S1250x1x256) (s₂ := S1250x1x256) 1 _ _ _ (ix3 g (1 : Fin 2) p) rfl rfl (ix3 g (0 : Fin 1) p)
      (fun b hb => by match b with | ⟨0, _⟩ => rfl | ⟨1, _⟩ => exact absurd rfl hb | ⟨2, _⟩ => rfl) rfl).trans ?_
    refine (groups_apply _ g p).trans ?_
    exact slice2_axis0_apply 1 E slices_S2x320000_S1x320000_1_0 (0 : Fin 1) _ (1 : Fin 2) rfl

variable (m : (ℓ : Loc nD τ sig) → Buf (Elt Ideal) ℓ)

/-- The region finds the column of words in window 0's array, -/
theorem V_words (c : Dev nD) :
    (V m c main_v9 : S640000x1.Idx → BitVec 32) = wordColumn (m ((c : Thread nD τ).loc main_arg1)) := by
  dsimp only [Gen.V, Gen.hostOps0]; after_results; rfl

/-- the node features in window 1's, -/
theorem V_nodes (c : Dev nD) (i : S10000x256.Idx) : V m c main_v10 i = m ((c : Thread nD τ).loc main_arg0) i := by
  have e : @Eq (FVec Ideal S10000x256 .bf16) (V m c main_v10) (truncf .bf16 (m ((c : Thread nD τ).loc main_arg0)) bitsLt_bf16_f32) := by
    dsimp only [Gen.V, Gen.hostOps0]; after_results
  rw [e]; rfl

/-- the first layer's weights in window 2's, -/
theorem V_w1 (c : Dev nD) (i : S512x256.Idx) : V m c main_v11 i = m ((c : Thread nD τ).loc main_arg2) i := by
  have e : @Eq (FVec Ideal S512x256 .bf16) (V m c main_v11) (truncf .bf16 (m ((c : Thread nD τ).loc main_arg2)) bitsLt_bf16_f32) := by
    dsimp only [Gen.V, Gen.hostOps0]; after_results
  rw [e]; rfl

/-- and the second layer's in window 4's. -/
theorem V_w2 (c : Dev nD) (i : S256x10.Idx) : V m c main_v12 i = m ((c : Thread nD τ).loc main_arg4) i := by
  have e : @Eq (FVec Ideal S256x10 .bf16) (V m c main_v12) (truncf .bf16 (m ((c : Thread nD τ).loc main_arg4)) bitsLt_bf16_f32) := by
    dsimp only [Gen.V, Gen.hostOps0]; after_results
  rw [e]; rfl

end Cert.KernelIdeal.Inputs

end
-- ==== Proof.KernelScores.lean ====
/-
  The kernel's output array after the run is the score array.

  Grid point `t` (of 1250) stages words `t · 512 … t · 512 + 511` of the column of words, the whole node table and the
  weights, and writes back rows `t · 256 … t · 256 + 255` of the output. Its block at `(p, q)` is the score `q` of the edge
  whose endpoints are words `t · 512 + p` and `t · 512 + 256 + p` of the column (`Block.block_apply`), that is entries
  `(0, t · 256 + p)` and `(1, t · 256 + p)` of the edge index (`Inputs.wordColumn_apply`): the score of edge `t · 256 + p`.
  So point `t` writes block `t` of the score array; the 1250 blocks of 256 rows cover the 320000 rows (row `r` is in
  block `r / 256`), and the array after the run is the score array.
-/
import proofs.«424090_j70909910057016_3_alg».proof.Proof.KernelBlock
import proofs.«424090_j70909910057016_3_alg».proof.Proof.KernelInputs

noncomputable section

namespace Cert.KernelIdeal.Scores

open Cert.KernelIdeal Cert.KernelIdeal.Gen Cert.KernelIdeal.Value Cert.KernelIdeal.Block Cert.KernelIdeal.Inputs
open Idealize.ShloMosaic Idealize.ShloMosaic.TcCoe Idealize.SL.Sem Idealize.ShloMosaic.ValueIdx
open Idealize.ShloMosaic.Pipeline (Dat)
open Cert.EdgeScore

variable (m : (ℓ : Loc nD τ sig) → Buf (Elt Ideal) ℓ) (ρ : Dev nD → PrngReg)

/-- The printed index maps, decided over the 1250 points: the column of words and the output move with the point along their
    rows; every other window is staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 1250 := lt_of_lt_of_eq t.isLt N_0

/-! ## What the body's loads read -/

/-- Word `r` of the staged column at point `t` is word `t · 512 + r` of the whole column. -/
theorem ld_words (c : Dev nD) (t : Fin cfg0.N) (r : Fin 512) :
    View.ld (iblk m c 0 t) r0_0 (ix2 r (0 : Fin 1))
      = V m c main_v9 (ix2 ⟨t.val * 512 + r.val, by have := point_lt t; omega⟩ (0 : Fin 1)) := by
  obtain ⟨e0, e1, -⟩ := idx_facts t
  show V m c main_v9 (((cfg0.win 0).blk t).view.emb (r0_0.emb (ix2 r (0 : Fin 1)))) = _
  refine congrArg (V m c main_v9) (funext fun a => Fin.ext ?_)
  match a with
  | ⟨0, _⟩ => show win0_0.index t (0 : Fin 2) * 512 + 1 * (0 + 1 * r.val) = t.val * 512 + r.val; omega
  | ⟨1, _⟩ => show win0_0.index t (1 : Fin 2) * 1 + 1 * (0 + 1 * 0) = 0; omega

/-- The node table is staged whole, -/
theorem ld_nodes (c : Dev nD) (t : Fin cfg0.N) (i : S10000x256.Idx) : View.ld (iblk m c 1 t) r0_1 i = V m c main_v10 i := by
  obtain ⟨-, -, e0, e1, -⟩ := idx_facts t
  show V m c main_v10 (((cfg0.win 1).blk t).view.emb (r0_1.emb i)) = _
  refine congrArg (V m c main_v10) (funext fun a => Fin.ext ?_)
  match a with
  | ⟨0, _⟩ => show win0_1.index t (0 : Fin 2) * 10000 + 1 * (0 + 1 * (i 0).val) = (i 0).val; omega
  | ⟨1, _⟩ => show win0_1.index t (1 : Fin 2) * 256 + 1 * (0 + 1 * (i 1).val) = (i 1).val; omega

/-- the upper half of the first layer's weights through one load, -/
theorem ld_w1_lo (c : Dev nD) (t : Fin cfg0.N) (k j : Fin 256) :
    View.ld (iblk m c 2 t) r0_2 (ix2 k j) = V m c main_v11 (ix2 (lo k) j) := by
  obtain ⟨-, -, -, -, e0, e1, -⟩ := idx_facts t
  show V m c main_v11 (((cfg0.win 2).blk t).view.emb (r0_2.emb (ix2 k j))) = _
  refine congrArg (V m c main_v11) (funext fun a => Fin.ext ?_)
  match a with
  | ⟨0, _⟩ => show win0_2.index t (0 : Fin 2) * 512 + 1 * (0 + 1 * k.val) = k.val; omega
  | ⟨1, _⟩ => show win0_2.index t (1 : Fin 2) * 256 + 1 * (0 + 1 * j.val) = j.val; omega

/-- the lower half through another, -/
theorem ld_w1_hi (c : Dev nD) (t : Fin cfg0.N) (k j : Fin 256) :
    View.ld (iblk m c 2 t) r0_3 (ix2 k j) = V m c main_v11 (ix2 (hi k) j) := by
  obtain ⟨-, -, -, -, e0, e1, -⟩ := idx_facts t
  show V m c main_v11 (((cfg0.win 2).blk t).view.emb (r0_3.emb (ix2 k j))) = _
  refine congrArg (V m c main_v11) (funext fun a => Fin.ext ?_)
  match a with
  | ⟨0, _⟩ => show win0_2.index t (0 : Fin 2) * 512 + 1 * (256 + 1 * k.val) = 256 + k.val; omega
  | ⟨1, _⟩ => show win0_2.index t (1 : Fin 2) * 256 + 1 * (0 + 1 * j.val) = j.val; omega

/-- the first bias, -/
theorem ld_b1 (c : Dev nD) (t : Fin cfg0.N) (i : S256.Idx) : View.ld (iblk m c 3 t) r0_4 i = V m c main_arg3 i := by
  obtain ⟨-, -, -, -, -, -, e0, -⟩ := idx_facts t
  show V m c main_arg3 (((cfg0.win 3).blk t).view.emb (r0_4.emb i)) = _
  refine congrArg (V m c main_arg3) (funext fun a => Fin.ext ?_)
  match a with
  | ⟨0, _⟩ => show win0_3.index t (0 : Fin 1) * 256 + 1 * (0 + 1 * (i 0).val) = (i 0).val; omega

/-- the second layer's weights, -/
theorem ld_w2 (c : Dev nD) (t : Fin cfg0.N) (i : S256x10.Idx) : View.ld (iblk m c 4 t) r0_5 i = V m c main_v12 i := by
  obtain ⟨-, -, -, -, -, -, -, e0, e1, -⟩ := idx_facts t
  show V m c main_v12 (((cfg0.win 4).blk t).view.emb (r0_5.emb i)) = _
  refine congrArg (V m c main_v12) (funext fun a => Fin.ext ?_)
  match a with
  | ⟨0, _⟩ => show win0_4.index t (0 : Fin 2) * 256 + 1 * (0 + 1 * (i 0).val) = (i 0).val; omega
  | ⟨1, _⟩ => show win0_4.index t (1 : Fin 2) * 10 + 1 * (0 + 1 * (i 1).val) = (i 1).val; omega

/-- and the second bias. -/
theorem ld_b2 (c : Dev nD) (t : Fin cfg0.N) (i : S10.Idx) : View.ld (iblk m c 5 t) r0_6 i = V m c main_arg5 i := by
  obtain ⟨-, -, -, -, -, -, -, -, -, e0, -⟩ := idx_facts t
  show V m c main_arg5 (((cfg0.win 5).blk t).view.emb (r0_6.emb i)) = _
  refine congrArg (V m c main_arg5) (funext fun a => Fin.ext ?_)
  match a with
  | ⟨0, _⟩ => show win0_5.index t (0 : Fin 1) * 10 + 1 * (0 + 1 * (i 0).val) = (i 0).val; omega

/-! ## What point `t` leaves in the output's staging buffer -/

/-- The arguments of the score array, as launched. -/
abbrev launched (c : Dev nD) : S320000x10.Idx → EReal :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

set_option maxHeartbeats 1000000 in
/-- Entry `(p, q)` of what point `t` leaves is the score array's at `(t · 256 + p, q)`, when the edge index is in range. -/
theorem out_apply (hin : ∀ (c : Dev nD) (i : S2x320000.Idx), InRange (m ((c : Thread nD τ).loc main_arg1) i))
    (c : Dev nD) (t : Fin cfg0.N) (p : Fin 256) (q : Fin 10) :
    out0_6 (iblk m c 0 t) (iblk m c 1 t) (iblk m c 2 t) (iblk m c 3 t) (iblk m c 4 t) (iblk m c 5 t) (ix2 p q)
      = launched m c (ix2 ⟨t.val * 256 + p.val, by have := point_lt t; omega⟩ q) := by
  have ht := point_lt t
  -- the two words of edge t · 256 + p
  have ws : ∀ (s : Fin 2) (r : Fin 512), r.val = s.val * 256 + p.val →
      View.ld (iblk m c 0 t) r0_0 (ix2 r (0 : Fin 1))
        = m ((c : Thread nD τ).loc main_arg1) (ix2 s ⟨t.val * 256 + p.val, by omega⟩) := fun s r hr => by
    rw [ld_words, V_words]
    refine Eq.trans (congrArg (wordColumn _) ?_) (wordColumn_apply _ ⟨t.val, ht⟩ s p)
    exact congrArg (fun r' => ix2 r' (0 : Fin 1)) (Fin.ext (by
      show t.val * 512 + r.val = t.val * 512 + s.val * 256 + p.val
      omega))
  have wsrc := ws 0 (lo p) (by show p.val = 0 * 256 + p.val; omega)
  have wdst := ws 1 (hi p) (by show 256 + p.val = 1 * 256 + p.val; omega)
  have e1 : (View.ld (iblk m c 1 t) r0_1 : S10000x256.Idx → EReal) = m ((c : Thread nD τ).loc main_arg0) :=
    funext fun i => (ld_nodes m c t i).trans (V_nodes m c i)
  have e4 : (View.ld (iblk m c 3 t) r0_4 : S256.Idx → EReal) = m ((c : Thread nD τ).loc main_arg3) :=
    funext fun i => (ld_b1 m c t i).trans (congrFun (V_main_arg3 m c) i)
  have e5 : (View.ld (iblk m c 4 t) r0_5 : S256x10.Idx → EReal) = m ((c : Thread nD τ).loc main_arg4) :=
    funext fun i => (ld_w2 m c t i).trans (V_w2 m c i)
  have e6 : (View.ld (iblk m c 5 t) r0_6 : S10.Idx → EReal) = m ((c : Thread nD τ).loc main_arg5) :=
    funext fun i => (ld_b2 m c t i).trans (congrFun (V_main_arg5 m c) i)
  unfold out0_6
  rw [canon6_eq]
  refine (block_apply _ _ _ _ _ _ _ (m ((c : Thread nD τ).loc main_arg2))
    (fun k j => (ld_w1_lo m c t k j).trans (V_w1 m c _)) (fun k j => (ld_w1_hi m c t k j).trans (V_w1 m c _)) p q
    (by rw [wsrc]; exact hin c _) (by rw [wdst]; exact hin c _)).trans ?_
  rw [wsrc, wdst]
  show score _ _ _ _ _ _ q = score _ _ _ _ _ _ q
  congr 1 <;> first
    | exact e4 | exact e5 | exact e6
    | (funext k; exact congrFun e1 _)

/-! ## From blocks to the array -/

/-- WHAT POINT `t` WRITES BACK is block `t` of the score array. -/
theorem flushed_eq (hin : ∀ (c : Dev nD) (i : S2x320000.Idx), InRange (m ((c : Thread nD τ).loc main_arg1) i))
    (c : Dev nD) (t : Fin cfg0.N) :
    (dats m 0 c).flushed 6 t = ((cfg0.win 6).blk t).view.read (Elt Ideal) (launched m c) := by
  rw [flushed6]
  obtain ⟨-, -, -, -, -, -, -, -, -, -, e0, e1⟩ := idx_facts t
  funext y
  obtain ⟨p, q, rfl⟩ : ∃ (p : Fin 256) (q : Fin 10), y = ix2 p q := ⟨y 0, y 1, eq_ix2 y⟩
  show out0_6 (iblk m c 0 t) (iblk m c 1 t) (iblk m c 2 t) (iblk m c 3 t) (iblk m c 4 t) (iblk m c 5 t) (ix2 p q)
      = launched m c (((cfg0.win 6).blk t).view.emb (ix2 p q))
  rw [out_apply m hin c t p q]
  refine congrArg (launched m c) (funext fun a => Fin.ext ?_)
  match a with
  | ⟨0, _⟩ => show t.val * 256 + p.val = win0_6.index t (0 : Fin 2) * 256 + 1 * p.val; omega
  | ⟨1, _⟩ => show q.val = win0_6.index t (1 : Fin 2) * 10 + 1 * q.val; omega

/-- An index of the output is in point `t`'s block iff each coordinate is in the block's range on its axis. -/
theorem mem_blk (t : Fin cfg0.N) (i : S320000x10.Idx) :
    i ∈ ((cfg0.win 6).blk t).view.set ↔ ∀ a : Fin 2, win0_6.index t a * S256x10.size a ≤ (i a).val ∧ (i a).val < win0_6.index t a * S256x10.size a + S256x10.size a := by
  show i ∈ ((View.whole main_v13).slice (win0_6.rect t)).set ↔ _
  rw [View.set_slice_whole, Rect.mem_set_unit]
  exact Iff.rfl

/-- Every row of the output is in the block of the point `row / 256`. -/
theorem cover (i : S320000x10.Idx) : ∃ t : Fin cfg0.N, (cfg0.win 6).flush t = true ∧ i ∈ ((cfg0.win 6).blk t).view.set := by
  have hi0 : (i 0).val < 320000 := (i 0).isLt
  have hi1 : (i 1).val < 10 := (i 1).isLt
  let t : Fin cfg0.N := ⟨(i 0).val / 256, by rw [show cfg0.N = 1250 from N_0]; omega⟩
  obtain ⟨-, -, -, -, -, -, -, -, -, -, e0, e1⟩ := idx_facts t
  refine ⟨t, flush0_6 t, ?_⟩
  rw [mem_blk]
  intro a
  have ht : t.val = (i 0).val / 256 := rfl
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 10 ≤ (i 1).val ∧ (i 1).val < win0_6.index t (1 : Fin 2) * 10 + 10; omega

/-- THE ARRAY after the run is the score array of the arguments as launched. -/
theorem final (hin : ∀ (c : Dev nD) (i : S2x320000.Idx), InRange (m ((c : Thread nD τ).loc main_arg1) i)) (c : Dev nD) :
    (dats m 0 c).arrAt 6 cfg0.N = launched m c :=
  (dats m 0 c).arrAt_eq_of_cover 6 (launched m c) (fun t _ => flushed_eq m hin c t) cover

/-- The frame run re-posted: the output at the score array, the arguments unchanged. -/
theorem run (hin : ∀ (c : Dev nD) (i : S2x320000.Idx), InRange (m ((c : Thread nD τ).loc main_arg1) i)) :
    θ_run defs (onTc (τ := τ) (main (F := Ideal))) ⟨m, fun _ => 0, ρ⟩ fun r => ∀ c : Dev nD,
      r.2.mem ((c : Thread nD τ).loc main_v13) = launched m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hin c), (h c).2⟩) (run_blocks m ρ)

end Cert.KernelIdeal.Scores

end
-- ==== Proof.RefRun.lean ====
/-
  The reference's run: every fair execution of its straight line of 49 host operations ends with the result buffer at the
  last stage of the operations, as a function of the six arguments, and with the arguments unchanged.

  The contents after a list of operations is a fold over the list, so the contents after the whole line is the contents
  after a later stretch of it taken from the contents after the stretches before (`after_append`). The line is cut in six:
  the first 22 operations make, from the node features and the two rows of the edge index, the two arrays of gathered
  endpoint features; then come the first layer (joining the two arrays side by side first), the second layer, each row's largest
  logit, the shift of the row by it, and the normalization. Each stretch is read for ARBITRARY contents before it, under
  hypotheses saying what the buffers it reads hold, so that each result is a small term: one stage of the operations.
-/
import proofs.«424090_j70909910057016_3_alg».proof.Proof.RefOps
import proofs.«424090_j70909910057016_3_alg».proof.Proof.RefRead

noncomputable section

namespace Cert.ReferenceIdeal.StagedRun

open Cert.ReferenceIdeal Cert.ReferenceIdeal.Gen Cert.ReferenceIdeal.RunCopy Cert.ReferenceIdeal.ReadCopy
open Idealize.ShloMosaic Idealize.ShloMosaic.TcCoe Idealize.SL.Sem Idealize.ShloMosaic.StableHlo

variable {F : FTy → Type} [FloatOps F]

/-- The contents after one list of operations and then another are the contents after their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first 22 operations: the two rows of the edge index, each wrapped and laid as a column, and the two gathers; -/
abbrev gathers : List (HloOp τ sig (Elt F)) := ops.take 22
/-- the next 8: the two gathered arrays side by side, the first affine layer, the rectifier; -/
abbrev layer1 : List (HloOp τ sig (Elt F)) := (ops.drop 22).take 8
/-- the next 4: the second affine layer; -/
abbrev layer2 : List (HloOp τ sig (Elt F)) := (ops.drop 30).take 4
/-- the next 2: each row's largest logit; -/
abbrev rowmax : List (HloOp τ sig (Elt F)) := (ops.drop 34).take 2
/-- the next 6: that maximum taken off the row; -/
abbrev shift : List (HloOp τ sig (Elt F)) := (ops.drop 36).take 6
/-- the last 7: the logarithm of the row's sum of exponentials taken off as well. -/
abbrev normalize : List (HloOp τ sig (Elt F)) := ops.drop 42

theorem ops_split : (ops : List (HloOp τ sig (Elt F))) = gathers ++ (layer1 ++ (layer2 ++ (rowmax ++ (shift ++ normalize)))) := rfl

/-- After the first stretch the source endpoints' features are the stage `val_main_v10` of the node features and the edge index, -/
theorem gathers_src (W : Valuation τ sig (Elt F)) :
    after gathers W (Proc.devRef .tc main_v10)
      = val_main_v10 (F := F) (W (Proc.devRef .tc main_arg0)) (W (Proc.devRef .tc main_arg1)) := by
  simp only [gathers, ops, List.drop_succ_cons, List.drop_zero, List.take_succ_cons, List.take_zero]
  after_results_simp
  rfl

/-- and the target endpoints' features the stage `val_main_v17`. -/
theorem gathers_dst (W : Valuation τ sig (Elt F)) :
    after gathers W (Proc.devRef .tc main_v17)
      = val_main_v17 (F := F) (W (Proc.devRef .tc main_arg0)) (W (Proc.devRef .tc main_arg1)) := by
  simp only [gathers, ops, List.drop_succ_cons, List.drop_zero, List.take_succ_cons, List.take_zero]
  after_results_simp
  rfl

/-- The first stretch writes none of the weights, -/
theorem gathers_arg2 (W : Valuation τ sig (Elt F)) : after gathers W (Proc.devRef .tc main_arg2) = W (Proc.devRef .tc main_arg2) := by
  simp only [gathers, ops, List.drop_succ_cons, List.drop_zero, List.take_succ_cons, List.take_zero]
  after_results_simp
theorem gathers_arg3 (W : Valuation τ sig (Elt F)) : after gathers W (Proc.devRef .tc main_arg3) = W (Proc.devRef .tc main_arg3) := by
  simp only [gathers, ops, List.drop_succ_cons, List.drop_zero, List.take_succ_cons, List.take_zero]
  after_results_simp
theorem gathers_arg4 (W : Valuation τ sig (Elt F)) : after gathers W (Proc.devRef .tc main_arg4) = W (Proc.devRef .tc main_arg4) := by
  simp only [gathers, ops, List.drop_succ_cons, List.drop_zero, List.take_succ_cons, List.take_zero]
  after_results_simp
theorem gathers_arg5 (W : Valuation τ sig (Elt F)) : after gathers W (Proc.devRef .tc main_arg5) = W (Proc.devRef .tc main_arg5) := by
  simp only [gathers, ops, List.drop_succ_cons, List.drop_zero, List.take_succ_cons, List.take_zero]
  after_results_simp

/-- nor does the first layer write the second layer's. -/
theorem layer1_arg4 (W : Valuation τ sig (Elt F)) : after layer1 W (Proc.devRef .tc main_arg4) = W (Proc.devRef .tc main_arg4) := by
  simp only [layer1, ops, List.drop_succ_cons, List.drop_zero, List.take_succ_cons, List.take_zero]
  after_results_simp
theorem layer1_arg5 (W : Valuation τ sig (Elt F)) : after layer1 W (Proc.devRef .tc main_arg5) = W (Proc.devRef .tc main_arg5) := by
  simp only [layer1, ops, List.drop_succ_cons, List.drop_zero, List.take_succ_cons, List.take_zero]
  after_results_simp

/-- The first layer, from contents holding the two gathered arrays as stages of `x0`, `x1`: the hidden array is the stage `val_main_v23`. -/
theorem layer1_hidden (W : Valuation τ sig (Elt F)) (x0 : (⟨S10000x256, .f32⟩ : BufTy).Contents (Elt F)) (x1 : (⟨S2x320000, .i32⟩ : BufTy).Contents (Elt F)) (x2 : (⟨S512x256, .f32⟩ : BufTy).Contents (Elt F)) (x3 : (⟨S256, .f32⟩ : BufTy).Contents (Elt F))
    (hs : W (Proc.devRef .tc main_v10) = val_main_v10 (F := F) x0 x1) (hd : W (Proc.devRef .tc main_v17) = val_main_v17 (F := F) x0 x1)
    (h2 : W (Proc.devRef .tc main_arg2) = x2) (h3 : W (Proc.devRef .tc main_arg3) = x3) :
    after layer1 W (Proc.devRef .tc main_v23) = val_main_v23 (F := F) x0 x1 x2 x3 := by
  simp only [layer1, ops, List.drop_succ_cons, List.drop_zero, List.take_succ_cons, List.take_zero]
  after_results_simp
  simp only [TRef.ofBuf, TRef.toBuf, cast_eq]
  rw [hs, hd, h2, h3]
  rfl

/-- The second layer, from contents holding the hidden array: the logits are the stage `val_main_v27`. -/
theorem layer2_logits (W : Valuation τ sig (Elt F)) (x0 : (⟨S10000x256, .f32⟩ : BufTy).Contents (Elt F)) (x1 : (⟨S2x320000, .i32⟩ : BufTy).Contents (Elt F)) (x2 : (⟨S512x256, .f32⟩ : BufTy).Contents (Elt F)) (x3 : (⟨S256, .f32⟩ : BufTy).Contents (Elt F)) (x4 : (⟨S256x10, .f32⟩ : BufTy).Contents (Elt F)) (x5 : (⟨S10, .f32⟩ : BufTy).Contents (Elt F))
    (hh : W (Proc.devRef .tc main_v23) = val_main_v23 (F := F) x0 x1 x2 x3)
    (h4 : W (Proc.devRef .tc main_arg4) = x4) (h5 : W (Proc.devRef .tc main_arg5) = x5) :
    after layer2 W (Proc.devRef .tc main_v27) = val_main_v27 (F := F) x0 x1 x2 x3 x4 x5 := by
  simp only [layer2, ops, List.drop_succ_cons, List.drop_zero, List.take_succ_cons, List.take_zero]
  after_results_simp
  rw [hh, h4, h5]
  rfl

/-- The row maxima, from contents holding the logits: the stage `val_main_call1_v0`; -/
theorem rowmax_result (W : Valuation τ sig (Elt F)) (x0 : (⟨S10000x256, .f32⟩ : BufTy).Contents (Elt F)) (x1 : (⟨S2x320000, .i32⟩ : BufTy).Contents (Elt F)) (x2 : (⟨S512x256, .f32⟩ : BufTy).Contents (Elt F)) (x3 : (⟨S256, .f32⟩ : BufTy).Contents (Elt F)) (x4 : (⟨S256x10, .f32⟩ : BufTy).Contents (Elt F)) (x5 : (⟨S10, .f32⟩ : BufTy).Contents (Elt F))
    (hl : W (Proc.devRef .tc main_v27) = val_main_v27 (F := F) x0 x1 x2 x3 x4 x5) :
    after rowmax W (Proc.devRef .tc main_call1_v0) = val_main_call1_v0 (F := F) x0 x1 x2 x3 x4 x5 := by
  simp only [rowmax, ops, List.drop_succ_cons, List.drop_zero, List.take_succ_cons, List.take_zero]
  after_results_simp
  simp only [TRef.ofBuf, TRef.toBuf, cast_eq]
  rw [hl]
  rfl

/-- the logits themselves are not written. -/
theorem rowmax_logits (W : Valuation τ sig (Elt F)) : after rowmax W (Proc.devRef .tc main_v27) = W (Proc.devRef .tc main_v27) := by
  simp only [rowmax, ops, List.drop_succ_cons, List.drop_zero, List.take_succ_cons, List.take_zero]
  after_results_simp

/-- The shift, from contents holding the logits and their row maxima: the shifted logits are the stage `val_main_call1_v5`. -/
theorem shift_logits (W : Valuation τ sig (Elt F)) (x0 : (⟨S10000x256, .f32⟩ : BufTy).Contents (Elt F)) (x1 : (⟨S2x320000, .i32⟩ : BufTy).Contents (Elt F)) (x2 : (⟨S512x256, .f32⟩ : BufTy).Contents (Elt F)) (x3 : (⟨S256, .f32⟩ : BufTy).Contents (Elt F)) (x4 : (⟨S256x10, .f32⟩ : BufTy).Contents (Elt F)) (x5 : (⟨S10, .f32⟩ : BufTy).Contents (Elt F))
    (hl : W (Proc.devRef .tc main_v27) = val_main_v27 (F := F) x0 x1 x2 x3 x4 x5)
    (hm : W (Proc.devRef .tc main_call1_v0) = val_main_call1_v0 (F := F) x0 x1 x2 x3 x4 x5) :
    after shift W (Proc.devRef .tc main_call1_v5) = val_main_call1_v5 (F := F) x0 x1 x2 x3 x4 x5 := by
  simp only [shift, ops, List.drop_succ_cons, List.drop_zero, List.take_succ_cons, List.take_zero]
  after_results_simp
  simp only [TRef.ofBuf, TRef.toBuf, cast_eq]
  rw [hl, hm]
  rfl

/-- The normalization, from contents holding the shifted logits: the result is the last stage, `val_main_v28`. -/
theorem normalize_result (W : Valuation τ sig (Elt F)) (x0 : (⟨S10000x256, .f32⟩ : BufTy).Contents (Elt F)) (x1 : (⟨S2x320000, .i32⟩ : BufTy).Contents (Elt F)) (x2 : (⟨S512x256, .f32⟩ : BufTy).Contents (Elt F)) (x3 : (⟨S256, .f32⟩ : BufTy).Contents (Elt F)) (x4 : (⟨S256x10, .f32⟩ : BufTy).Contents (Elt F)) (x5 : (⟨S10, .f32⟩ : BufTy).Contents (Elt F))
    (hz : W (Proc.devRef .tc main_call1_v5) = val_main_call1_v5 (F := F) x0 x1 x2 x3 x4 x5) :
    after normalize W (Proc.devRef .tc main_v28) = val_main_v28 (F := F) x0 x1 x2 x3 x4 x5 := by
  simp only [normalize, ops, List.drop_succ_cons, List.drop_zero, List.take_succ_cons, List.take_zero]
  after_results_simp
  simp only [TRef.ofBuf, TRef.toBuf, cast_eq]
  rw [hz]
  rfl

/-- The whole line: the result buffer ends at the last stage of the arguments' contents. -/
theorem result_eq (V : Valuation τ sig (Elt F)) :
    after ops V (Proc.devRef .tc main_v28)
      = val_main_v28 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, after_append, after_append]
  have hh := layer1_hidden (after gathers V) _ _ _ _ (gathers_src V) (gathers_dst V) (gathers_arg2 V) (gathers_arg3 V)
  have hl := layer2_logits (after layer1 (after gathers V)) _ _ _ _ _ _ hh
    ((layer1_arg4 _).trans (gathers_arg4 V)) ((layer1_arg5 _).trans (gathers_arg5 V))
  exact normalize_result _ _ _ _ _ _ _
    (shift_logits _ _ _ _ _ _ _ ((rowmax_logits _).trans hl) (rowmax_result _ _ _ _ _ _ _ hl))

set_option maxRecDepth 8192 in
set_option maxHeartbeats 2000000 in
/-- On every device, from any memory with zero counters: every weakly fair execution of the reference terminates with its result
    at the last stage `val_main_v28` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = val_main_v28 (F := F) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v28).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.StagedRun

end
-- ==== Proof.LibGatherRows.lean ====
/-
  Taking rows of a table by index: `X[idx]` for a rank-2 table `X : [N, K]` and a column of `n` start indices.

  Array indexing by an integer array prints as a gather whose start indices are an `[n, 1]` column, whose operand axis 0 is
  collapsed and start-indexed and whose operand axis 1 is the one offset axis (slices `[1, K]`), with no batching axes. Result
  entry `(e, k)` is then the table's entry `(r, k)` where `r` is start index `e` read as a SIGNED integer and clamped into
  `[0, N − 1]`: a negative index reads row 0, one past the end reads the last row.
-/
import Idealize.ShloMosaic.Lib.ValueIdx
import Idealize.ShloMosaic.PureOps

namespace Cert.LibGatherRows

open Idealize.ShloMosaic Idealize.ShloMosaic.ValueIdx

section
variable {α : Type} {N K n w : Nat} (d : GatherDims ⟨2, ![N, K]⟩ ⟨2, ![n, 1]⟩ ⟨2, ![n, K]⟩)
  (hoff : d.offsetDims = [1]) (hcoll : d.collapsedSliceDims = [0]) (hob : d.operandBatchingDims = [])
  (hsim : d.startIndexMap = [0]) (hivd : d.indexVectorDim = 1)
include hoff hcoll hob hsim hivd

/-- The start-indices entry that result row `e` reads its one start index from: `(e, 0)`. -/
theorem siIdx_row (e : Fin n) (k : Fin K) (c : Fin d.startIndexMap.length) : d.siIdx (ix2 e k) c = ix2 e (0 : Fin 1) := by
  funext b
  match b with
  | ⟨0, _⟩ =>
    unfold GatherDims.siIdx
    rw [dif_neg (by rw [hivd]; simp)]
    unfold GatherDims.siCoord
    apply Fin.ext
    simp only [Fin.val_cast]
    have hbd : ∀ X ∈ d.batchDims, X = (0 : Fin 2) := by
      intro X hX
      have hX' : X ∈ (List.finRange 2).filter (· ∉ d.offsetDims) := hX
      rw [hoff] at hX'
      fin_cases X
      · rfl
      · simp at hX'
    rw [hbd _ (List.getElem_mem _)]
  | ⟨1, _⟩ =>
    unfold GatherDims.siIdx
    rw [dif_pos (by rw [hivd])]
    apply Fin.ext
    have hl : d.startIndexMap.length = 1 := by rw [hsim]; rfl
    have hc : c.val = 0 := by have := c.isLt; omega
    show c.val = 0
    exact hc

/-- On the table's row axis the operand index is the clamped start index. -/
theorem operand_row (idx : IVec ⟨2, ![n, 1]⟩ w) (e : Fin n) (k : Fin K) :
    (d.operandIdx (ix2 e k) idx 0).val = min (idx (ix2 e (0 : Fin 1))).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  show d.start (ix2 e k) idx 0 + d.batchCoord (ix2 e k) 0 + d.offCoord (ix2 e k) 0 = _
  rw [GatherDims.batchCoord_eq_zero _ _ _ hb, GatherDims.offCoord_eq_zero _ _ _ hk, Nat.add_zero]
  unfold GatherDims.start
  rw [dif_pos hm, siIdx_row d hoff hcoll hob hsim hivd e k, hsl]
  rfl

/-- On the table's column axis it is the result's column. -/
theorem operand_col (idx : IVec ⟨2, ![n, 1]⟩ w) (e : Fin n) (k : Fin K) :
    (d.operandIdx (ix2 e k) idx 1).val = k.val := by
  have hb : (1 : Fin 2) ∉ d.operandBatchingDims := by rw [hob]; exact List.not_mem_nil
  have hk : (1 : Fin 2) ∈ d.sKept := by rw [GatherDims.mem_sKept, hcoll]; exact ⟨by simp, hb⟩
  have hm : (1 : Fin 2) ∉ d.startIndexMap := by rw [hsim]; simp
  show d.start (ix2 e k) idx 1 + d.batchCoord (ix2 e k) 1 + d.offCoord (ix2 e k) 1 = _
  rw [GatherDims.batchCoord_eq_zero _ _ _ hb, Nat.add_zero]
  unfold GatherDims.start GatherDims.offCoord
  rw [dif_neg hm, dif_pos hk, Nat.zero_add]
  have hod : ∀ X ∈ d.offsetDims, X = (1 : Fin 2) := by
    intro X hX; rw [hoff] at hX; simpa using hX
  rw [hod _ (List.getElem_mem _)]

/-- The rows a column of start indices names: entry `(e, k)` of the gather is entry `(r, k)` of the table, `r` the clamped index. -/
theorem gather_rows (x : (⟨2, ![N, K]⟩ : Shape).Idx → α) (idx : IVec ⟨2, ![n, 1]⟩ w) (e : Fin n) (k : Fin K) (hN : 0 < N) :
    Host.gather d x idx (ix2 e k) = x (ix2 ⟨min (idx (ix2 e (0 : Fin 1))).toInt.toNat (N - 1), by omega⟩ k) := by
  unfold Host.gather
  congr 1
  funext a
  apply Fin.ext
  match a with
  | ⟨0, _⟩ => exact operand_row d hoff hcoll hob hsim hivd idx e k
  | ⟨1, _⟩ => exact operand_col d hoff hcoll hob hsim hivd idx e k

end

end Cert.LibGatherRows
-- ==== Proof.RefScores.lean ====
/-
  The reference's last stage is the score array.

  Entry `(e, q)` of the reference's result is read back through its stages: the log-softmax of the row of logits, the
  logits from the hidden row, the hidden row from the 512-wide row made of the two gathered rows (one product with the
  whole first-layer matrix: `EdgeScore.hidden_cat` turns it into the two half products), and each gathered row the row
  of the node table that the wrapped and clamped word names — `EdgeScore.node` by definition. No hypothesis on the edge
  index is needed on this side: the score array is DEFINED with the reference's treatment of a word.
-/
import proofs.«424090_j70909910057016_3_alg».proof.Proof.RefRead
import proofs.«424090_j70909910057016_3_alg».proof.Proof.EdgeScore
import proofs.«424090_j70909910057016_3_alg».proof.Proof.LibRowOps
import proofs.«424090_j70909910057016_3_alg».proof.Proof.LibRowReduce
import proofs.«424090_j70909910057016_3_alg».proof.Proof.LibGatherRows

noncomputable section

namespace Cert.ReferenceIdeal.Scores

open Cert.ReferenceIdeal Cert.ReferenceIdeal.Gen Cert.ReferenceIdeal.ReadCopy
open Idealize.ShloMosaic Idealize.ShloMosaic.TcCoe Idealize.ShloMosaic.ValueIdx
open Cert.EdgeScore Cert.LibRowOps Cert.LibRowReduce Cert.LibGatherRows
open scoped BigOperators

variable (x0 : FVec Ideal S10000x256 .f32) (x1 : IVec S2x320000 32) (x2 : FVec Ideal S512x256 .f32) (x3 : FVec Ideal S256 .f32)
  (x4 : FVec Ideal S256x10 .f32) (x5 : FVec Ideal S10 .f32)

/-! ## The two gathered rows -/

/-- The start index the first gather reads for edge `e`: the wrapped source word. -/
theorem src_word (e : Fin 320000) : val_main_v9 (F := Ideal) x1 (ix2 e (0 : Fin 1)) = wrap (x1 (ix2 (0 : Fin 2) e)) := by
  have hi : idx_main_v0 (idx_main_v1 (idx_main_v9 (ix2 e (0 : Fin 1)))) = ix2 (0 : Fin 2) e := by
    funext a; apply Fin.ext
    match a with
    | ⟨0, _⟩ => rfl
    | ⟨1, _⟩ => show e.val % 320000 = e.val; exact Nat.mod_eq_of_lt e.isLt
  rw [val_main_v9_apply, val_main_v8_apply, val_main_v5_apply, val_main_v7_apply, val_main_v1_apply, val_main_v0_apply, hi]
  rfl

/-- The second gather's: the wrapped target word. -/
theorem dst_word (e : Fin 320000) : val_main_v16 (F := Ideal) x1 (ix2 e (0 : Fin 1)) = wrap (x1 (ix2 (1 : Fin 2) e)) := by
  have hi : idx_main_v2 (idx_main_v3 (idx_main_v16 (ix2 e (0 : Fin 1)))) = ix2 (1 : Fin 2) e := by
    funext a; apply Fin.ext
    match a with
    | ⟨0, _⟩ => rfl
    | ⟨1, _⟩ => show e.val % 320000 = e.val; exact Nat.mod_eq_of_lt e.isLt
  rw [val_main_v16_apply, val_main_v15_apply, val_main_v12_apply, val_main_v14_apply, val_main_v3_apply, val_main_v2_apply, hi]
  rfl

/-- Row `e` of the first gather is the row of the node table the source word names, -/
theorem src_row (e : Fin 320000) (k : Fin 256) :
    val_main_v10 (F := Ideal) x0 x1 (ix2 e k) = x0 (ix2 (node (x1 (ix2 (0 : Fin 2) e))) k) := by
  unfold val_main_v10
  refine (gather_rows gather_S10000x256_S320000x1_S320000x256_1_0_n_n_0_1_1256 rfl rfl rfl rfl rfl x0 _ e k (by decide)).trans ?_
  exact congrArg (fun r => x0 (ix2 r k)) (Fin.ext (by
    show min (val_main_v9 (F := Ideal) x1 (ix2 e (0 : Fin 1))).toInt.toNat (10000 - 1) = min (wrap (x1 (ix2 (0 : Fin 2) e))).toInt.toNat 9999
    rw [src_word]))

/-- and of the second the row the target word names. -/
theorem dst_row (e : Fin 320000) (k : Fin 256) :
    val_main_v17 (F := Ideal) x0 x1 (ix2 e k) = x0 (ix2 (node (x1 (ix2 (1 : Fin 2) e))) k) := by
  unfold val_main_v17
  refine (gather_rows gather_S10000x256_S320000x1_S320000x256_1_0_n_n_0_1_1256 rfl rfl rfl rfl rfl x0 _ e k (by decide)).trans ?_
  exact congrArg (fun r => x0 (ix2 r k)) (Fin.ext (by
    show min (val_main_v16 (F := Ideal) x1 (ix2 e (0 : Fin 1))).toInt.toNat (10000 - 1) = min (wrap (x1 (ix2 (1 : Fin 2) e))).toInt.toNat 9999
    rw [dst_word]))

/-- The endpoints' rows of edge `e`. -/
abbrev srcRow (e : Fin 320000) : Fin 256 → EReal := fun k => x0 (ix2 (node (x1 (ix2 (0 : Fin 2) e))) k)
abbrev dstRow (e : Fin 320000) : Fin 256 → EReal := fun k => x0 (ix2 (node (x1 (ix2 (1 : Fin 2) e))) k)

/-- Row `e` of the two gathers side by side is the 512-wide row made of the two. -/
theorem cat_row (e : Fin 320000) (k : Fin 512) :
    val_main_v18 (F := Ideal) x0 x1 (ix2 e k) = cat (srcRow x0 x1 e) (dstRow x0 x1 e) k := by
  unfold val_main_v18 cat
  split
  · next h =>
    exact (concatenate_pair_apply_left (t := S320000x512) (s₁ := S320000x256) (s₂ := S320000x256) 1 _ _ _ (ix2 e k) rfl (ix2 e ⟨k.val, h⟩)
      (fun b => by match b with | ⟨0, _⟩ => rfl | ⟨1, _⟩ => rfl)).trans (src_row x0 x1 e ⟨k.val, h⟩)
  · next h =>
    exact (concatenate_pair_apply_right (t := S320000x512) (s₁ := S320000x256) (s₂ := S320000x256) 1 _ _ _ (ix2 e k) rfl rfl
      (ix2 e ⟨k.val - 256, by omega⟩)
      (fun b hb => by match b with | ⟨0, _⟩ => rfl | ⟨1, _⟩ => exact absurd rfl hb)
      (by show (k.val - 256) + 256 = k.val; omega)).trans (dst_row x0 x1 e ⟨k.val - 256, by omega⟩)

/-! ## The two layers -/

/-- Row `e` of the hidden array. -/
theorem hidden_row (e : Fin 320000) (j : Fin 256) :
    val_main_v23 (F := Ideal) x0 x1 x2 x3 (ix2 e j) = EdgeScore.hidden x2 x3 (srcRow x0 x1 e) (dstRow x0 x1 e) j := by
  have hl : ∀ k : Fin 512, lidx_main_v19 (ix2 e j) k = ix2 e k := fun k => by
    funext a; apply Fin.ext; match a with | ⟨0, _⟩ => rfl | ⟨1, _⟩ => rfl
  have hr : ∀ k : Fin 512, ridx_main_v19 (ix2 e j) k = ix2 k j := fun k => by
    funext a; apply Fin.ext; match a with | ⟨0, _⟩ => rfl | ⟨1, _⟩ => rfl
  have hb : idx_main_v20 (idx_main_v21 (ix2 e j)) = ix1 j := by
    funext a; apply Fin.ext; match a with | ⟨0, _⟩ => rfl
  rw [val_main_v23_apply, val_main_v22_apply, val_main_v19_apply, val_main_v21_apply, val_main_v20_apply, hb]
  simp only [hl, hr, cat_row]
  exact hidden_cat x2 x3 (srcRow x0 x1 e) (dstRow x0 x1 e) j

/-- Row `e` of the logits. -/
theorem logit_row (e : Fin 320000) (q : Fin 10) :
    val_main_v27 (F := Ideal) x0 x1 x2 x3 x4 x5 (ix2 e q)
      = logit x4 x5 (EdgeScore.hidden x2 x3 (srcRow x0 x1 e) (dstRow x0 x1 e)) q := by
  have hl : ∀ k : Fin 256, lidx_main_v24 (ix2 e q) k = ix2 e k := fun k => by
    funext a; apply Fin.ext; match a with | ⟨0, _⟩ => rfl | ⟨1, _⟩ => rfl
  have hr : ∀ k : Fin 256, ridx_main_v24 (ix2 e q) k = ix2 k q := fun k => by
    funext a; apply Fin.ext; match a with | ⟨0, _⟩ => rfl | ⟨1, _⟩ => rfl
  have hb : idx_main_v25 (idx_main_v26 (ix2 e q)) = ix1 q := by
    funext a; apply Fin.ext; match a with | ⟨0, _⟩ => rfl
  rw [val_main_v27_apply, val_main_v24_apply, val_main_v26_apply, val_main_v25_apply, hb]
  simp only [hl, hr, hidden_row]
  rfl

/-! ## The log-softmax -/

/-- The logits of edge `e`. -/
abbrev logits (e : Fin 320000) : Fin 10 → EReal := logit x4 x5 (EdgeScore.hidden x2 x3 (srcRow x0 x1 e) (dstRow x0 x1 e))

/-- The logits' rows reduce along the columns. -/
theorem reduces_rows : S320000x10.Reduces [1] S320000 := by decide

/-- The row's largest logit, as the reference takes it: the maximum of the word for −∞ with the fold from that word. -/
theorem top_row (e : Fin 320000) :
    val_main_call1_v2 (F := Ideal) x0 x1 x2 x3 x4 x5 (ix1 e) = top (logits x0 x1 x2 x3 x4 x5 e) := by
  have hfold : val_main_call1_v0 (F := Ideal) x0 x1 x2 x3 x4 x5 (ix1 e) = top (logits x0 x1 x2 x3 x4 x5 e) := by
    unfold val_main_call1_v0
    rw [Host.reduce_eq_fold_single FloatOps.maximumf _ _ reducesTo_S320000x10_S320000_d1 reduces_rows h_S_]
    have ef : (val_main_v27 (F := Ideal) x0 x1 x2 x3 x4 x5 ∘ reduces_rows.lift (ix1 e)) = logits x0 x1 x2 x3 x4 x5 e :=
      funext fun c => (congrArg (val_main_v27 (F := Ideal) x0 x1 x2 x3 x4 x5) (lift_cols reduces_rows e c)).trans
        (logit_row x0 x1 x2 x3 x4 x5 e c)
    rw [ef]
    rfl
  rw [val_main_call1_v2_apply, hfold]
  exact max_top _

/-- The shifted logits. -/
theorem shifted_row (e : Fin 320000) (q : Fin 10) :
    val_main_call1_v5 (F := Ideal) x0 x1 x2 x3 x4 x5 (ix2 e q)
      = logits x0 x1 x2 x3 x4 x5 e q - top (logits x0 x1 x2 x3 x4 x5 e) := by
  have hi : idx_main_call1_v3 (idx_main_call1_v4 (ix2 e q)) = ix1 e := by
    funext a; apply Fin.ext; match a with | ⟨0, _⟩ => rfl
  rw [val_main_call1_v5_apply, val_main_call1_v4_apply, val_main_call1_v3_apply, hi, top_row, logit_row]
  rfl

/-- THE REFERENCE'S RESULT, as one function of its arguments: the score array. -/
theorem result_eq : val_main_v28 (F := Ideal) x0 x1 x2 x3 x4 x5 = scores x0 x1 x2 x3 x4 x5 := by
  funext i
  obtain ⟨e, q, rfl⟩ : ∃ (e : Fin 320000) (q : Fin 10), i = ix2 e q := ⟨i 0, i 1, eq_ix2 i⟩
  have hi : idx_main_call1_v8 (idx_main_call1_v10 (ix2 e q)) = ix1 e := by
    funext a; apply Fin.ext; match a with | ⟨0, _⟩ => rfl
  have hk : ∀ c : Fin 10, idx_main_call1_v7 (ix1 e) c = ix2 e c := fun c => by
    funext a; apply Fin.ext; match a with | ⟨0, _⟩ => rfl | ⟨1, _⟩ => rfl
  rw [val_main_v28_apply, val_main_call1_v10_apply, val_main_call1_v9_apply, val_main_call1_v8_apply, hi, val_main_call1_v7_apply,
    shifted_row]
  simp only [hk, val_main_call1_v6_apply, shifted_row]
  show (logits x0 x1 x2 x3 x4 x5 e q - top (logits x0 x1 x2 x3 x4 x5 e))
      - Ideal.log (Ideal.ofBits .f32 0x00000000#32 + ∑ c : Fin 10, Ideal.exp (logits x0 x1 x2 x3 x4 x5 e c - top (logits x0 x1 x2 x3 x4 x5 e))) = _
  rw [Ideal.ofBits_zero_f32, zero_add]
  rfl

end Cert.ReferenceIdeal.Scores

end
-- ==== Proof.InputRange.lean ====
/-
  What the precondition says of the edge index.

  The printed precondition is a conjunction, and its last conjunct is `all` over the edge index of the two signed
  comparisons `0 ≤ w` and `w < 10000`: a reduction by `and` into a scalar that is 1 had a 1 at every entry, so every
  word of the edge index is in range in the sense of `EdgeScore.InRange`.
-/
import proofs.«424090_j70909910057016_3_alg».proof.Pre_finite_inputs
import proofs.«424090_j70909910057016_3_alg».proof.Proof.EdgeScore
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx Cert.EdgeScore

variable [Facts]

instance : Subsingleton S_.Idx := ⟨fun _ _ => funext fun d => d.elim0⟩

/-- Under the precondition every word of the edge index is in [0, 10000). -/
theorem inRange_of_pre {F : FTy → Type} [FloatOps F] (a0 : FVec F S10000x256 .f32) (a1 : IVec S2x320000 32) (a2 : FVec F S512x256 .f32)
    (a3 : FVec F S256 .f32) (a4 : FVec F S256x10 .f32) (a5 : FVec F S10 .f32)
    (h : fn (F := F) a0 a1 a2 a3 a4 a5 = fun _ => 1#1) (i : S2x320000.Idx) : InRange (a1 i) := by
  have h0 := congrFun h ix0
  dsimp only [fn, fn_part1] at h0
  have h1 := (IntOp.andi_eq_one.mp h0).2
  have h2 := Host.reduce_andi_all _ _ _ _ _ h1 i
  have h3 := IntOp.andi_eq_one.mp h2
  exact ⟨h3.1, h3.2⟩

end Cert.Pre_finite_inputs.Range

end
-- ==== Proof.lean ====
/-
  Edge classification on a graph: the kernel and the reference compute the same score array over the extended reals.

  For each of 320000 edges both programs take the feature rows of the edge's two endpoint nodes (rows of a [10000, 256]
  table named by the two entries of the edge index), run them through a two-layer perceptron — 512 → 256 with a rectifier,
  256 → 10 — and take the log-softmax of the ten logits (Proof/EdgeScore.lean states this score as ONE function).
  * The reference reads the rows by array indexing (a wrap of negative words, a clamp into the table), joins them into a
    512-wide row and multiplies by the whole first-layer matrix (Proof/RefScores.lean over the stages of its run,
    Proof/RefRun.lean).
  * The kernel, per block of 256 edges, multiplies the table by a 0/1 array with a single 1 per row at the position the
    word names, which selects that row for a word in [0, 10000) (and the zero row otherwise — where the two programs
    differ), and multiplies the two gathered rows by the two halves of the first-layer matrix separately
    (Proof/KernelBlock.lean, Proof/KernelInputs.lean, Proof/KernelScores.lean).
  The two agree on every edge index whose entries are node indices, `0 ≤ edge_index < 10000`, which the precondition
  states (Proof/InputRange.lean reads it back); the only law between the two arrangements is that a sum over 512 terms is
  the sum of its two halves, so finiteness of the float inputs is never used. Changes of float format are the identity
  on extended reals, so the idealized kernel is the kernel's own text and `preserves` has nothing to state.
-/
import proofs.«424090_j70909910057016_3_alg».proof.Defs
import proofs.«424090_j70909910057016_3_alg».proof.Proof.Gen.Kernel
import proofs.«424090_j70909910057016_3_alg».proof.Proof.Gen.Kernel.Skeleton
import proofs.«424090_j70909910057016_3_alg».proof.Proof.Gen.Kernel.Launch
import proofs.«424090_j70909910057016_3_alg».proof.Proof.Gen.Kernel.Points
import proofs.«424090_j70909910057016_3_alg».proof.Proof.Gen.Kernel.Frame
import proofs.«424090_j70909910057016_3_alg».proof.Proof.Gen.KernelIdeal
import proofs.«424090_j70909910057016_3_alg».proof.Proof.Gen.KernelIdeal.Skeleton
import proofs.«424090_j70909910057016_3_alg».proof.Proof.Gen.KernelIdeal.Launch
import proofs.«424090_j70909910057016_3_alg».proof.Proof.Gen.KernelIdeal.Points
import proofs.«424090_j70909910057016_3_alg».proof.Proof.Gen.KernelIdeal.Frame
import proofs.«424090_j70909910057016_3_alg».proof.Proof.Gen.ReferenceIdeal
import proofs.«424090_j70909910057016_3_alg».proof.Proof.Gen.Pre_finite_inputs
import proofs.«424090_j70909910057016_3_alg».proof.Proof.Gen.KernelIdeal.Value
import proofs.«424090_j70909910057016_3_alg».proof.Proof.KernelScores
import proofs.«424090_j70909910057016_3_alg».proof.Proof.RefRun
import proofs.«424090_j70909910057016_3_alg».proof.Proof.RefScores
import proofs.«424090_j70909910057016_3_alg».proof.Proof.InputRange
import Idealize.ShloMosaic.Adequacy
import Idealize.ShloMosaic.Init

noncomputable section

namespace Cert.Proof

open Idealize.ShloMosaic Idealize.SL.Sem

/-- The kernel as printed runs and leaves its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.StagedRun.run (F := Ideal) m ρ)

/-- Both programs end at the score array of the arguments: the kernel's blocks tile it (for an edge index in range, which the
    precondition gives), and the reference's last stage is it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hin : ∀ (c : Dev Cert.KernelIdeal.nD) (i : Cert.KernelIdeal.S2x320000.Idx),
      Cert.EdgeScore.InRange (m ((c.tc : Thread Cert.KernelIdeal.nD Cert.KernelIdeal.τ).loc Cert.KernelIdeal.main_arg1) i) :=
    fun c i => Cert.Pre_finite_inputs.Range.inRange_of_pre _ _ _ _ _ _ (hpre c) i
  refine ⟨fun c => Cert.KernelIdeal.Scores.launched m c, Cert.KernelIdeal.Scores.run m ρ hin, ?_⟩
  refine (θ_run Cert.ReferenceIdeal.defs _ _).mono (fun _ h c => ⟨(h c).1.trans ?_, (h c).2⟩)
    (Cert.ReferenceIdeal.StagedRun.run (F := Ideal) m' ρ')
  refine (Cert.ReferenceIdeal.Scores.result_eq _ _ _ _ _ _).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
